-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg2 : IVec S600000 32) (main_arg3 : IVec S600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S600000 32 := broadcastInDim S600000 ![] bcast_S_S600000 main_c_6
  let main_v20 : IVec S600000 1 := cmpi .sge main_arg2 main_v19
  let main_c_7 : IVec S_ 32 := constantI S_ 32 50000#32
  let main_v21 : IVec S600000 32 := broadcastInDim S600000 ![] bcast_S_S600000 main_c_7
  let main_v22 : IVec S600000 1 := cmpi .slt main_arg2 main_v21
  let main_v23 : IVec S600000 1 := andi main_v20 main_v22
  let main_c_8 : IVec S_ 1 := constantI S_ 1 1#1
  let main_v24 : IVec S_ 1 := (fun x v => Host.reduce IntOp.andi x v reducesTo_S600000_S_d0 h_S_) main_v23 main_c_8
  let main_v25 : IVec S_ 1 := andi main_v18 main_v24
  let main_c_9 : IVec S_ 32 := constantI S_ 32 0#32
  let main_v26 : IVec S600000 32 := broadcastInDim S600000 ![] bcast_S_S600000 main_c_9
  let main_v27 : IVec S600000 1 := cmpi .sge main_arg3 main_v26
  let main_c_10 : IVec S_ 32 := constantI S_ 32 50000#32
  let main_v28 : IVec S600000 32 := broadcastInDim S600000 ![] bcast_S_S600000 main_c_10
  let main_v29 : IVec S600000 1 := cmpi .slt main_arg3 main_v28
  let main_v30 : IVec S600000 1 := andi main_v27 main_v29
  let main_c_11 : IVec S_ 1 := constantI S_ 1 1#1
  let main_v31 : IVec S_ 1 := (fun x v => Host.reduce IntOp.andi x v reducesTo_S600000_S_d0 h_S_) main_v30 main_c_11
  let main_v32 : IVec S_ 1 := andi main_v25 main_v31
  main_v32

def fn {F : FTy → Type} [FloatOps F] (main_arg0 : FVec F S50000x128 .f32) (main_arg1 : FVec F S600000x128 .f32) (main_arg2 : IVec S600000 32) (main_arg3 : IVec S600000 32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128 : Shape := ⟨1, ![128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S6000x128 : Shape := ⟨2, ![6000, 128]⟩
abbrev S1x128 : Shape := ⟨2, ![1, 128]⟩
abbrev S5000x128 : Shape := ⟨2, ![5000, 128]⟩

abbrev nBuf : Space → Nat
  | .hbm => 89
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S1, .i32⟩
  | .hbm, ⟨15, _⟩ => ⟨S_, .i32⟩
  | .hbm, ⟨16, _⟩ => ⟨S600000x1, .i32⟩
  | .hbm, ⟨17, _⟩ => ⟨S600000x1, .i1⟩
  | .hbm, ⟨18, _⟩ => ⟨S1x1, .i32⟩
  | .hbm, ⟨19, _⟩ => ⟨S600000x1, .i32⟩
  | .hbm, ⟨20, _⟩ => ⟨S600000x1, .i1⟩
  | .hbm, ⟨21, _⟩ => ⟨S600000x1, .i1⟩
  | .hbm, ⟨22, _⟩ => ⟨S_, .i1⟩
  | .hbm, ⟨23, _⟩ => ⟨S600000, .i1⟩
  | .hbm, ⟨24, _⟩ => ⟨S600000x128, .f32⟩
  | .hbm, ⟨25, _⟩ => ⟨S600000x128, .i1⟩
  | .hbm, ⟨26, _⟩ => ⟨S_, .f32⟩
  | .hbm, ⟨27, _⟩ => ⟨S600000x128, .f32⟩
  | .hbm, ⟨28, _⟩ => ⟨S600000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S1, .i32⟩
  | .hbm, ⟨38, _⟩ => ⟨S_, .i32⟩
  | .hbm, ⟨39, _⟩ => ⟨S600000x1, .i32⟩
  | .hbm, ⟨40, _⟩ => ⟨S600000x1, .i1⟩
  | .hbm, ⟨41, _⟩ => ⟨S1x1, .i32⟩
  | .hbm, ⟨42, _⟩ => ⟨S600000x1, .i32⟩
  | .hbm, ⟨43, _⟩ => ⟨S600000x1, .i1⟩
  | .hbm, ⟨44, _⟩ => ⟨S600000x1, .i1⟩
  | .hbm, ⟨45, _⟩ => ⟨S_, .i1⟩
  | .hbm, ⟨46, _⟩ => ⟨S600000, .i1⟩
  | .hbm, ⟨47, _⟩ => ⟨S600000x128, .f32⟩
  | .hbm, ⟨48, _⟩ => ⟨S600000x128, .i1⟩
  | .hbm, ⟨49, _⟩ => ⟨S_, .f32⟩
  | .hbm, ⟨50, _⟩ => ⟨S600000x128, .f32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x128, .f32⟩
  | .local _ .vmem, ⟨11, _⟩ => ⟨S6000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2_0 : Ref sig .tc := ⟨.hbm, 52, rfl⟩
abbrev main_v2_1 : Ref sig .tc := ⟨.hbm, 53, rfl⟩
abbrev main_v2_2 : Ref sig .tc := ⟨.hbm, 54, rfl⟩
abbrev main_cst : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst_0 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_cst_1 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst_2 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15_0 : Ref sig .tc := ⟨.hbm, 71, rfl⟩
abbrev main_v15_1 : Ref sig .tc := ⟨.hbm, 72, rfl⟩
abbrev main_v15_2 : Ref sig .tc := ⟨.hbm, 73, rfl⟩
abbrev main_v16 : Ref sig .tc := ⟨.hbm, 74, rfl⟩
abbrev main_cst_3 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst_4 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .f32 = 32 ∨ (Rect.block (s := S600000x128) S6000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S600000x128.size a
  hwx0_4 : ∀ i : grid0.Coords, EltTy.bits .f32 = 32 ∨ (Rect.block (s := S600000x128) S6000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x128.size a ≤ S600000x128.size a
  hwx0_5 : ∀ i : grid0.Coords, EltTy.bits .f32 = 32 ∨ (Rect.block (s := S600000x128) S6000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v0) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S6000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S6000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S6000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128 : Shape := ⟨1, ![128]⟩
abbrev S_ : Shape := ⟨0, ![]⟩
abbrev S600000x1 : Shape := ⟨2, ![600000, 1]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S600000x128, .f32⟩
  | 2 => ⟨S600000, .i32⟩
  | 3 => ⟨S600000, .i32⟩
  | 4 => ⟨S128, .f32⟩
  | 5 => ⟨S128, .f32⟩
  | 6 => ⟨S_, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S600000x128, .f32⟩
  | 40 => ⟨S600000x128, .f32⟩
  | 41 => ⟨S600000x128, .f32⟩
  | 42 => ⟨S600000x128, .f32⟩
  | 43 => ⟨S_, .f32⟩
  | 44 => ⟨S600000x128, .f32⟩
  | 45 => ⟨S600000x128, .f32⟩
  | 46 => ⟨S_, .f32⟩
  | 47 => ⟨S600000x128, .f32⟩
  | 48 => ⟨S600000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S_, .f32⟩
  | 64 => ⟨S50000x128, .f32⟩
  | 65 => ⟨S600000x1, .i32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S_, .f32⟩
  | 86 => ⟨S50000x128, .f32⟩
  | 87 => ⟨S600000x1, .i32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S_, .f32⟩
  | 96 => ⟨S128, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S128, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_14 : Ref sig .tc := ⟨.hbm, 71, rfl⟩
abbrev main_v49 : Ref sig .tc := ⟨.hbm, 72, rfl⟩
abbrev main_v50 : Ref sig .tc := ⟨.hbm, 73, rfl⟩
abbrev main_c_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_21 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_23 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call0_cst : Ref sig .tc := ⟨.hbm, 125, rfl⟩
abbrev main_call0_v0 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The mathematics both programs compute, index by index on the extended reals.

  Inputs: node features h : [N, D], edge features e : [E, D], the two gathered tables gs, gd : [E, D]
  (row k of gs is the row of h that edge k's source names, row k of gd the row its destination names),
  and the BatchNorm scale γ and shift β : [D], with N = 50000, E = 600000, D = 128.

  Per edge and channel: the gate σ(0.1·gs − 10·gd + e) (σ the logistic function), the forward message
  gate · (100·gs) and the backward message gate · (−gd).  Per node and channel, from the four segment sums
  nf, df (over in-edges) and nb, db (over out-edges):  x = 10·h + nf / (df + ε₆) + nb / (db + ε₆).
  Per channel: the batch mean μ = (Σ_r x) / N and a batch variance, in the two forms the programs use,
  the second moment minus the squared mean (`varK`) and the mean squared deviation (`varR`).
  The result: max ((x − μ) · rsqrt (v + ε₅) · γ + β, 0) + h.
-/
import Idealize.ShloMosaic.PureOps.Ideal
import Idealize.ShloMosaic.Lib.ValueIdx

noncomputable section

namespace Cert.Spec

open Idealize.ShloMosaic Idealize.ShloMosaic.ValueIdx

abbrev SN : Shape := ⟨2, ![50000, 128]⟩
abbrev SE : Shape := ⟨2, ![600000, 128]⟩

/-- The float literals of the two programs, each the exact value of its binary word. -/
abbrev c01 : EReal := Ideal.ofBits .f32 0x3DCCCCCD#32
abbrev cm10 : EReal := Ideal.ofBits .f32 0xC1200000#32
abbrev c100 : EReal := Ideal.ofBits .f32 0x42C80000#32
abbrev cm1 : EReal := Ideal.ofBits .f32 0xBF800000#32
abbrev c10 : EReal := Ideal.ofBits .f32 0x41200000#32
abbrev eps6 : EReal := Ideal.ofBits .f32 0x358637BD#32
abbrev eps5 : EReal := Ideal.ofBits .f32 0x3727C5AC#32
abbrev cN : EReal := Ideal.ofBits .f32 0x47435000#32
abbrev c0 : EReal := Ideal.ofBits .f32 0x00000000#32

/-- The edge gate σ(0.1·gs − 10·gd + e). -/
def gate (gs gd e : SE.Idx → EReal) : SE.Idx → EReal :=
  fun j => Ideal.logistic (gs j * c01 + gd j * cm10 + e j)

/-- The forward message gate · (100·gs). -/
def numF (gs gd e : SE.Idx → EReal) : SE.Idx → EReal :=
  fun j => gate gs gd e j * (gs j * c100)

/-- The backward message gate · (−1·gd). -/
def numB (gs gd e : SE.Idx → EReal) : SE.Idx → EReal :=
  fun j => gate gs gd e j * (gd j * cm1)

/-- The node value before normalisation: 10·h + nf / (df + ε₆) + nb / (db + ε₆). -/
def hpre (h nf df nb db : SN.Idx → EReal) : SN.Idx → EReal :=
  fun i => h i * c10 + Ideal.div (nf i) (df i + eps6) + Ideal.div (nb i) (db i + eps6)

/-- The sum of a channel over all nodes. -/
def colSum (x : SN.Idx → EReal) : Fin 128 → EReal := fun d => ∑ r : Fin 50000, x (ix2 r d)

/-- The batch mean of a channel. -/
def mean (x : SN.Idx → EReal) : Fin 128 → EReal := fun d => Ideal.div (colSum x d) cN

/-- The batch variance as second moment minus squared mean. -/
def varK (x : SN.Idx → EReal) : Fin 128 → EReal :=
  fun d => Ideal.div (colSum (fun i => x i * x i) d) cN - mean x d * mean x d

/-- The batch variance as mean squared deviation from the mean. -/
def varR (x : SN.Idx → EReal) : Fin 128 → EReal :=
  fun d => Ideal.div (∑ r : Fin 50000, (x (ix2 r d) - mean x d) * (x (ix2 r d) - mean x d)) cN

/-- Normalise, scale and shift, rectify, add the residual. -/
def out (x h : SN.Idx → EReal) (μ v γ β : Fin 128 → EReal) : SN.Idx → EReal :=
  fun i => max ((x i - μ (i 1)) * Ideal.rsqrt (v (i 1) + eps5) * γ (i 1) + β (i 1)) c0 + h i

end Cert.Spec

end
-- ==== Proof.Region0.lean ====
/-
  The edge region's three output arrays as whole-array functions of its three operand arrays.
  The region walks the 600000 edges in 100 blocks of 6000 rows; at each block it loads the source rows, the destination rows
  and the edge features, and stores the gate σ(0.1·gs − 10·gd + e), the forward message gate·(100·gs) and the backward
  message gate·(−gd), all pointwise.  Block t covers rows 6000·t … 6000·t + 5999 of every array, so entry (r, k) of an output
  is written by block r / 6000 from entry (r, k) of the operands: each output array is the pointwise function of the
  operand arrays.
-/
import proofs.«417057_j29661044146779_3_alg».proof.Proof.Gen.KernelIdeal.Frame
import proofs.«417057_j29661044146779_3_alg».proof.Proof.Spec
import Idealize.ShloMosaic.Lib.Pipeline.Value

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic at an index -/

/-- The gate block at an index: the logistic function of 0.1·x0 − 10·x1 + x2 there. -/
private theorem pay_gate (x0 x1 x2 : Vec Ideal S6000x128 .f32) (j : S6000x128.Idx) :
    k0_pay3 x0 x1 x2 j = Ideal.logistic (x0 j * Cert.Spec.c01 + x1 j * Cert.Spec.cm10 + x2 j) := by
  unfold k0_pay3 k0_pay1 k0_pay2
  simp only [shapeCast_self]
  rfl

/-- The forward-message block at an index: the gate times 100·x0. -/
private theorem pay_numF (x0 x1 x2 : Vec Ideal S6000x128 .f32) (j : S6000x128.Idx) :
    k0_pay4 x0 x1 x2 j
      = Ideal.logistic (x0 j * Cert.Spec.c01 + x1 j * Cert.Spec.cm10 + x2 j) * (x0 j * Cert.Spec.c100) := by
  unfold k0_pay4
  show k0_pay3 x0 x1 x2 j * (k0_pay1 x0 j * _) = _
  rw [pay_gate]
  unfold k0_pay1
  simp only [shapeCast_self]
  rfl

/-- The backward-message block at an index: the gate times −1·x1. -/
private theorem pay_numB (x0 x1 x2 : Vec Ideal S6000x128 .f32) (j : S6000x128.Idx) :
    k0_pay5 x0 x1 x2 j
      = Ideal.logistic (x0 j * Cert.Spec.c01 + x1 j * Cert.Spec.cm10 + x2 j) * (x1 j * Cert.Spec.cm1) := by
  unfold k0_pay5
  show k0_pay3 x0 x1 x2 j * (k0_pay2 x1 j * _) = _
  rw [pay_gate]
  unfold k0_pay2
  simp only [shapeCast_self]
  rfl

/-- A block of an output is the block of the whole-array function, once each input block is its array read
    at the same place. -/
private theorem block_gate (A0 A1 A2 : Cert.Spec.SE.Idx → EReal) (x0 x1 x2 : Vec Ideal S6000x128 .f32)
    (e : S6000x128.Idx → Cert.Spec.SE.Idx) (h0 : ∀ j, x0 j = A0 (e j)) (h1 : ∀ j, x1 j = A1 (e j))
    (h2 : ∀ j, x2 j = A2 (e j)) (j : S6000x128.Idx) :
    k0_pay3 x0 x1 x2 j = Cert.Spec.gate A0 A1 A2 (e j) := by
  rw [pay_gate, h0, h1, h2]; rfl

private theorem block_numF (A0 A1 A2 : Cert.Spec.SE.Idx → EReal) (x0 x1 x2 : Vec Ideal S6000x128 .f32)
    (e : S6000x128.Idx → Cert.Spec.SE.Idx) (h0 : ∀ j, x0 j = A0 (e j)) (h1 : ∀ j, x1 j = A1 (e j))
    (h2 : ∀ j, x2 j = A2 (e j)) (j : S6000x128.Idx) :
    k0_pay4 x0 x1 x2 j = Cert.Spec.numF A0 A1 A2 (e j) := by
  rw [pay_numF, h0, h1, h2]; rfl

private theorem block_numB (A0 A1 A2 : Cert.Spec.SE.Idx → EReal) (x0 x1 x2 : Vec Ideal S6000x128 .f32)
    (e : S6000x128.Idx → Cert.Spec.SE.Idx) (h0 : ∀ j, x0 j = A0 (e j)) (h1 : ∀ j, x1 j = A1 (e j))
    (h2 : ∀ j, x2 j = A2 (e j)) (j : S6000x128.Idx) :
    k0_pay5 x0 x1 x2 j = Cert.Spec.numB A0 A1 A2 (e j) := by
  rw [pay_numB, h0, h1, h2]; rfl

/-! ## Where the blocks lie -/

private theorem hz : (![0, 0] : Fin 2 → Nat) = fun _ => 0 := funext fun a => by fin_cases a <;> rfl

/-- Every window's block at point t is rows 6000·t … 6000·t + 5999, all 128 columns (decided over the grid). -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The array index of element j of the block at point t: row 6000·t + j₀, column j₁. -/
private def at0 (t : Fin cfg0.N) (j : S6000x128.Idx) : Cert.Spec.SE.Idx :=
  ix2 ⟨t.val * 6000 + (j 0).val, by have := t.isLt; have hN : cfg0.N = 100 := N_0; have hj : (j 0).val < 6000 := (j 0).isLt; omega⟩ ⟨(j 1).val, (j 1).isLt⟩

private theorem emb0 (t : Fin cfg0.N) (j : S6000x128.Idx) : ((cfg0.win 0).blk t).view.emb j = at0 t j := by
  obtain ⟨⟨e0, e1⟩, -⟩ := idx_facts t
  funext a; apply Fin.ext
  match a with
  | ⟨0, _⟩ => show win0_0.index t (0 : Fin 2) * 6000 + 1 * (j 0).val = t.val * 6000 + (j 0).val; rw [e0]; omega
  | ⟨1, _⟩ => show win0_0.index t (1 : Fin 2) * 128 + 1 * (j 1).val = (j 1).val; rw [e1]; omega

private theorem emb1 (t : Fin cfg0.N) (j : S6000x128.Idx) : ((cfg0.win 1).blk t).view.emb j = at0 t j := by
  obtain ⟨-, ⟨e0, e1⟩, -⟩ := idx_facts t
  funext a; apply Fin.ext
  match a with
  | ⟨0, _⟩ => show win0_1.index t (0 : Fin 2) * 6000 + 1 * (j 0).val = t.val * 6000 + (j 0).val; rw [e0]; omega
  | ⟨1, _⟩ => show win0_1.index t (1 : Fin 2) * 128 + 1 * (j 1).val = (j 1).val; rw [e1]; omega

private theorem emb2 (t : Fin cfg0.N) (j : S6000x128.Idx) : ((cfg0.win 2).blk t).view.emb j = at0 t j := by
  obtain ⟨-, -, ⟨e0, e1⟩, -⟩ := idx_facts t
  funext a; apply Fin.ext
  match a with
  | ⟨0, _⟩ => show win0_2.index t (0 : Fin 2) * 6000 + 1 * (j 0).val = t.val * 6000 + (j 0).val; rw [e0]; omega
  | ⟨1, _⟩ => show win0_2.index t (1 : Fin 2) * 128 + 1 * (j 1).val = (j 1).val; rw [e1]; omega

private theorem emb3 (t : Fin cfg0.N) (j : S6000x128.Idx) : ((cfg0.win 3).blk t).view.emb j = at0 t j := by
  obtain ⟨-, -, -, ⟨e0, e1⟩, -⟩ := idx_facts t
  funext a; apply Fin.ext
  match a with
  | ⟨0, _⟩ => show win0_3.index t (0 : Fin 2) * 6000 + 1 * (j 0).val = t.val * 6000 + (j 0).val; rw [e0]; omega
  | ⟨1, _⟩ => show win0_3.index t (1 : Fin 2) * 128 + 1 * (j 1).val = (j 1).val; rw [e1]; omega

private theorem emb4 (t : Fin cfg0.N) (j : S6000x128.Idx) : ((cfg0.win 4).blk t).view.emb j = at0 t j := by
  obtain ⟨-, -, -, -, ⟨e0, e1⟩, -⟩ := idx_facts t
  funext a; apply Fin.ext
  match a with
  | ⟨0, _⟩ => show win0_4.index t (0 : Fin 2) * 6000 + 1 * (j 0).val = t.val * 6000 + (j 0).val; rw [e0]; omega
  | ⟨1, _⟩ => show win0_4.index t (1 : Fin 2) * 128 + 1 * (j 1).val = (j 1).val; rw [e1]; omega

private theorem emb5 (t : Fin cfg0.N) (j : S6000x128.Idx) : ((cfg0.win 5).blk t).view.emb j = at0 t j := by
  obtain ⟨-, -, -, -, -, ⟨e0, e1⟩⟩ := idx_facts t
  funext a; apply Fin.ext
  match a with
  | ⟨0, _⟩ => show win0_5.index t (0 : Fin 2) * 6000 + 1 * (j 0).val = t.val * 6000 + (j 0).val; rw [e0]; omega
  | ⟨1, _⟩ => show win0_5.index t (1 : Fin 2) * 128 + 1 * (j 1).val = (j 1).val; rw [e1]; omega

variable (V : (c : Dev nD) → (b : Ref sig .tc) → Buf (Elt Ideal) ((c : Thread nD τ).loc b))

/-- Each input block at point t is its array read at the block's rows. -/
private theorem iblk_0 (c : Dev nD) (t : Fin cfg0.N) (j : S6000x128.Idx) :
    (iblk0 V c 0 t : Vec Ideal S6000x128 .f32) j = (V c main_v0 : Cert.Spec.SE.Idx → EReal) (at0 t j) := by
  rw [← emb0 t j]; rfl

private theorem iblk_1 (c : Dev nD) (t : Fin cfg0.N) (j : S6000x128.Idx) :
    (iblk0 V c 1 t : Vec Ideal S6000x128 .f32) j = (V c main_v1 : Cert.Spec.SE.Idx → EReal) (at0 t j) := by
  rw [← emb1 t j]; rfl

private theorem iblk_2 (c : Dev nD) (t : Fin cfg0.N) (j : S6000x128.Idx) :
    (iblk0 V c 2 t : Vec Ideal S6000x128 .f32) j = (V c main_arg1 : Cert.Spec.SE.Idx → EReal) (at0 t j) := by
  rw [← emb2 t j]; rfl

/-! ## What a point writes back, and the cover -/

/-- What point t writes back to the forward-message window is block t of the whole-array function. -/
private theorem flushed3_eq (c : Dev nD) (t : Fin cfg0.N) :
    (dat0 (F := Ideal) V c).flushed 3 t
      = ((cfg0.win 3).blk t).view.read (Elt Ideal) (Cert.Spec.numF (V c main_v0) (V c main_v1) (V c main_arg1)) := by
  show (cfg0.win 3).cut (grid0.coords t) ((dat0 V c).after 3 t) = _
  rw [after0_3]
  unfold out0_3
  rw [View.canon_unit_zero hz]
  simp only [View.ld_unit_zero (S := S6000x128) hz]
  funext j
  show k0_pay4 (iblk0 V c 0 t) (iblk0 V c 1 t) (iblk0 V c 2 t) j
    = Cert.Spec.numF (V c main_v0) (V c main_v1) (V c main_arg1) (((cfg0.win 3).blk t).view.emb j)
  rw [emb3 t j]
  exact block_numF _ _ _ _ _ _ (at0 t) (iblk_0 V c t) (iblk_1 V c t) (iblk_2 V c t) j

private theorem flushed4_eq (c : Dev nD) (t : Fin cfg0.N) :
    (dat0 (F := Ideal) V c).flushed 4 t
      = ((cfg0.win 4).blk t).view.read (Elt Ideal) (Cert.Spec.numB (V c main_v0) (V c main_v1) (V c main_arg1)) := by
  show (cfg0.win 4).cut (grid0.coords t) ((dat0 V c).after 4 t) = _
  rw [after0_4]
  unfold out0_4
  rw [View.canon_unit_zero hz]
  simp only [View.ld_unit_zero (S := S6000x128) hz]
  funext j
  show k0_pay5 (iblk0 V c 0 t) (iblk0 V c 1 t) (iblk0 V c 2 t) j
    = Cert.Spec.numB (V c main_v0) (V c main_v1) (V c main_arg1) (((cfg0.win 4).blk t).view.emb j)
  rw [emb4 t j]
  exact block_numB _ _ _ _ _ _ (at0 t) (iblk_0 V c t) (iblk_1 V c t) (iblk_2 V c t) j

private theorem flushed5_eq (c : Dev nD) (t : Fin cfg0.N) :
    (dat0 (F := Ideal) V c).flushed 5 t
      = ((cfg0.win 5).blk t).view.read (Elt Ideal) (Cert.Spec.gate (V c main_v0) (V c main_v1) (V c main_arg1)) := by
  show (cfg0.win 5).cut (grid0.coords t) ((dat0 V c).after 5 t) = _
  rw [after0_5]
  unfold out0_5
  rw [View.canon_unit_zero hz]
  simp only [View.ld_unit_zero (S := S6000x128) hz]
  funext j
  show k0_pay3 (iblk0 V c 0 t) (iblk0 V c 1 t) (iblk0 V c 2 t) j
    = Cert.Spec.gate (V c main_v0) (V c main_v1) (V c main_arg1) (((cfg0.win 5).blk t).view.emb j)
  rw [emb5 t j]
  exact block_gate _ _ _ _ _ _ (at0 t) (iblk_0 V c t) (iblk_1 V c t) (iblk_2 V c t) j

/-- An index of the array is in point t's block iff each coordinate is in the block's range on its axis. -/
private theorem mem_blk3 (t : Fin cfg0.N) (i : S600000x128.Idx) :
    i ∈ ((cfg0.win 3).blk t).view.set ↔ ∀ a : Fin 2, win0_3.index t a * S6000x128.size a ≤ (i a).val ∧ (i a).val < win0_3.index t a * S6000x128.size a + S6000x128.size a := by
  show i ∈ ((View.whole main_v2_0).slice (win0_3.rect t)).set ↔ _
  rw [View.set_slice_whole, Rect.mem_set_unit]
  exact Iff.rfl

private theorem mem_blk4 (t : Fin cfg0.N) (i : S600000x128.Idx) :
    i ∈ ((cfg0.win 4).blk t).view.set ↔ ∀ a : Fin 2, win0_4.index t a * S6000x128.size a ≤ (i a).val ∧ (i a).val < win0_4.index t a * S6000x128.size a + S6000x128.size a := by
  show i ∈ ((View.whole main_v2_1).slice (win0_4.rect t)).set ↔ _
  rw [View.set_slice_whole, Rect.mem_set_unit]
  exact Iff.rfl

private theorem mem_blk5 (t : Fin cfg0.N) (i : S600000x128.Idx) :
    i ∈ ((cfg0.win 5).blk t).view.set ↔ ∀ a : Fin 2, win0_5.index t a * S6000x128.size a ≤ (i a).val ∧ (i a).val < win0_5.index t a * S6000x128.size a + S6000x128.size a := by
  show i ∈ ((View.whole main_v2_2).slice (win0_5.rect t)).set ↔ _
  rw [View.set_slice_whole, Rect.mem_set_unit]
  exact Iff.rfl

/-- The point whose block holds row r: r / 6000. -/
private def ptOf (i : S600000x128.Idx) : Fin cfg0.N :=
  ⟨(i 0).val / 6000, by have hN : cfg0.N = 100 := N_0; have hi : (i 0).val < 600000 := (i 0).isLt; omega⟩

private theorem ptOf_val (i : S600000x128.Idx) : (ptOf i).val = (i 0).val / 6000 := rfl

/-- Every index of the array is in the block of the point its row names. -/
private theorem cover3 (i : S600000x128.Idx) :
    ∃ t : Fin cfg0.N, (cfg0.win 3).flush t = true ∧ i ∈ ((cfg0.win 3).blk t).view.set := by
  obtain ⟨-, -, -, ⟨e0, e1⟩, -⟩ := idx_facts (ptOf i)
  have hv := ptOf_val i
  have hi1 : (i 1).val < 128 := (i 1).isLt
  refine ⟨ptOf i, flush0_3 _, ?_⟩
  rw [mem_blk3]
  intro a
  match a with
  | ⟨0, _⟩ => show win0_3.index (ptOf i) (0 : Fin 2) * 6000 ≤ (i 0).val ∧ (i 0).val < win0_3.index (ptOf i) (0 : Fin 2) * 6000 + 6000; rw [e0]; omega
  | ⟨1, _⟩ => show win0_3.index (ptOf i) (1 : Fin 2) * 128 ≤ (i 1).val ∧ (i 1).val < win0_3.index (ptOf i) (1 : Fin 2) * 128 + 128; rw [e1]; omega

private theorem cover4 (i : S600000x128.Idx) :
    ∃ t : Fin cfg0.N, (cfg0.win 4).flush t = true ∧ i ∈ ((cfg0.win 4).blk t).view.set := by
  obtain ⟨-, -, -, -, ⟨e0, e1⟩, -⟩ := idx_facts (ptOf i)
  have hv := ptOf_val i
  have hi1 : (i 1).val < 128 := (i 1).isLt
  refine ⟨ptOf i, flush0_4 _, ?_⟩
  rw [mem_blk4]
  intro a
  match a with
  | ⟨0, _⟩ => show win0_4.index (ptOf i) (0 : Fin 2) * 6000 ≤ (i 0).val ∧ (i 0).val < win0_4.index (ptOf i) (0 : Fin 2) * 6000 + 6000; rw [e0]; omega
  | ⟨1, _⟩ => show win0_4.index (ptOf i) (1 : Fin 2) * 128 ≤ (i 1).val ∧ (i 1).val < win0_4.index (ptOf i) (1 : Fin 2) * 128 + 128; rw [e1]; omega

private theorem cover5 (i : S600000x128.Idx) :
    ∃ t : Fin cfg0.N, (cfg0.win 5).flush t = true ∧ i ∈ ((cfg0.win 5).blk t).view.set := by
  obtain ⟨-, -, -, -, -, ⟨e0, e1⟩⟩ := idx_facts (ptOf i)
  have hv := ptOf_val i
  have hi1 : (i 1).val < 128 := (i 1).isLt
  refine ⟨ptOf i, flush0_5 _, ?_⟩
  rw [mem_blk5]
  intro a
  match a with
  | ⟨0, _⟩ => show win0_5.index (ptOf i) (0 : Fin 2) * 6000 ≤ (i 0).val ∧ (i 0).val < win0_5.index (ptOf i) (0 : Fin 2) * 6000 + 6000; rw [e0]; omega
  | ⟨1, _⟩ => show win0_5.index (ptOf i) (1 : Fin 2) * 128 ≤ (i 1).val ∧ (i 1).val < win0_5.index (ptOf i) (1 : Fin 2) * 128 + 128; rw [e1]; omega

/-! ## The arrays after the region -/

/-- The forward-message array after the edge region: the closed form of its blocks. -/
theorem final3 (c : Dev nD) :
    (dat0 (F := Ideal) V c).arrAt 3 cfg0.N = Cert.Spec.numF (V c main_v0) (V c main_v1) (V c main_arg1) :=
  (dat0 (F := Ideal) V c).arrAt_eq_of_cover 3 (Cert.Spec.numF (V c main_v0) (V c main_v1) (V c main_arg1))
    (fun t _ => flushed3_eq V c t) cover3

/-- The backward-message array after the edge region. -/
theorem final4 (c : Dev nD) :
    (dat0 (F := Ideal) V c).arrAt 4 cfg0.N = Cert.Spec.numB (V c main_v0) (V c main_v1) (V c main_arg1) :=
  (dat0 (F := Ideal) V c).arrAt_eq_of_cover 4 (Cert.Spec.numB (V c main_v0) (V c main_v1) (V c main_arg1))
    (fun t _ => flushed4_eq V c t) cover4

/-- The gate array after the edge region. -/
theorem final5 (c : Dev nD) :
    (dat0 (F := Ideal) V c).arrAt 5 cfg0.N = Cert.Spec.gate (V c main_v0) (V c main_v1) (V c main_arg1) :=
  (dat0 (F := Ideal) V c).arrAt_eq_of_cover 5 (Cert.Spec.gate (V c main_v0) (V c main_v1) (V c main_arg1))
    (fun t _ => flushed5_eq V c t) cover5

end Cert.KernelIdeal.Region0

end
-- ==== Proof.Region1Sum.lean ====
/-
  Ten blocks of 5000 rows are the 50000 rows.

  A sum over all rows, taken in any commutative additive monoid (the extended reals among them), is the sum over the ten
  blocks of the sums over each block's 5000 rows: addition is associative and commutative, and
  (block, row in block) ↦ 5000·block + row is a bijection from pairs onto the rows.
-/
import proofs.«417057_j29661044146779_3_alg».proof.Proof.Spec
import Mathlib.Algebra.BigOperators.Fin
import Mathlib.Logic.Equiv.Fin.Basic

namespace Cert.KernelIdeal.Region1

/-- Row p of the k-th block of 5000 rows. -/
def row (k : Fin 10) (p : Fin 5000) : Fin 50000 := ⟨5000 * k.val + p.val, by omega⟩

/-- A sum over the 50000 rows is the sum, over the ten blocks, of the sums over each block's 5000 rows: addition is
    associative and commutative, and (block, row in block) ↦ 5000·block + row is a bijection. -/
theorem sum_rows {M : Type*} [AddCommMonoid M] (f : Fin 50000 → M) :
    ∑ r : Fin 50000, f r = ∑ k : Fin 10, ∑ p : Fin 5000, f (row k p) := by
  rw [← Fintype.sum_prod_type']
  refine ((finProdFinEquiv (m := 10) (n := 5000)).sum_comp f).symm.trans ?_
  refine Fintype.sum_congr _ _ fun kp => congrArg f (Fin.ext ?_)
  show kp.2.val + 5000 * kp.1.val = 5000 * kp.1.val + kp.2.val
  omega

end Cert.KernelIdeal.Region1
-- ==== Proof.Region1.lean ====
/-
  The combine region, read as mathematics.

  The region walks the 50000 node rows in ten blocks of 5000. At block t it forms, entry by entry, the node value
  x = 10·h + nf / (df + ε) + nb / (db + ε) of the five operand blocks, stores that block, and adds the block's column
  sums, and the column sums of its squares, to two one-row accumulators that are set to zero before the first block.

  So the stored array is x itself (row r lies in block r / 5000), and after the last block the accumulators hold, in
  channel d, the sums over all 50000 rows of x and of x·x: addition on the extended reals is associative and commutative,
  the zero word is its zero, and the ten blocks of 5000 rows are exactly the rows.
-/
import proofs.«417057_j29661044146779_3_alg».proof.Proof.Gen.KernelIdeal.Frame
import proofs.«417057_j29661044146779_3_alg».proof.Proof.Spec
import proofs.«417057_j29661044146779_3_alg».proof.Proof.Region1Sum
import Idealize.ShloMosaic.Lib.Pipeline.Value
import Idealize.ShloMosaic.Lib.Tactic
import Idealize.ShloMosaic.Lib.ValueLayout
import Idealize.ShloMosaic.PureOps.Ideal.Laws

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Tactic

section Body

variable {F : FTy → Type} [FloatOps F]

private theorem hz : (![0, 0] : Fin 2 → Nat) = fun _ => 0 := funext fun a => by fin_cases a <;> rfl

/-! ## What each case of the body leaves in the three output blocks

At the first point the two one-row accumulators are first reset to the zero row; at every point the block of the node
value is stored whole, and its column sums, and the column sums of its squares, are added to the accumulators. -/

private theorem out_A_5 (c : Dev nD) (i : grid1.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 x2 x3 x4 : Vec F S5000x128 .f32) :
    out1_A_5 c i a1 h1 a2 h2 a3 h3 a4 h4 a5 h5 a6 h6 a7 h7 a8 h8 hc x0 x1 x2 x3 x4 = k1_pay4 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

private theorem out_A_6 (c : Dev nD) (i : grid1.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 x2 x3 x4 : Vec F S5000x128 .f32) :
    out1_A_6 c i a1 h1 a2 h2 a3 h3 a4 h4 a5 h5 a6 h6 a7 h7 a8 h8 hc x0 x1 x2 x3 x4 = k1_pay5 x0 x1 x2 x3 x4 (k1_pay2 (F := F)) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]

private theorem out_A_7 (c : Dev nD) (i : grid1.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 x2 x3 x4 : Vec F S5000x128 .f32) :
    out1_A_7 c i a1 h1 a2 h2 a3 h3 a4 h4 a5 h5 a6 h6 a7 h7 a8 h8 hc x0 x1 x2 x3 x4 = k1_pay1 (k1_pay6 (k1_pay3 (F := F))) (k1_pay7 x0 x1 x2 x3 x4) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]

private theorem out_B_5 (c : Dev nD) (i : grid1.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 x2 x3 x4 : Vec F S5000x128 .f32) (xo6 xo7 : Vec F S1x128 .f32) :
    out1_B_5 c i a1 h1 a2 h2 a3 h3 a4 h4 a5 h5 a6 h6 a7 h7 a8 h8 hc x0 x1 x2 x3 x4 xo6 xo7 = k1_pay4 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

private theorem out_B_6 (c : Dev nD) (i : grid1.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 x2 x3 x4 : Vec F S5000x128 .f32) (xo6 xo7 : Vec F S1x128 .f32) :
    out1_B_6 c i a1 h1 a2 h2 a3 h3 a4 h4 a5 h5 a6 h6 a7 h7 a8 h8 hc x0 x1 x2 x3 x4 xo6 xo7 = k1_pay5 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

private theorem out_B_7 (c : Dev nD) (i : grid1.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 x2 x3 x4 : Vec F S5000x128 .f32) (xo6 xo7 : Vec F S1x128 .f32) :
    out1_B_7 c i a1 h1 a2 h2 a3 h3 a4 h4 a5 h5 a6 h6 a7 h7 a8 h8 hc x0 x1 x2 x3 x4 xo6 xo7 = k1_pay1 (k1_pay6 xo7) (k1_pay7 x0 x1 x2 x3 x4) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

end Body

/-! ## The body's arithmetic at the ideal values, index by index -/

/-- The stored node value: 10·h + nf / (df + ε) + nb / (db + ε), entry by entry. -/
private theorem pay4_apply (x0 x1 x2 x3 x4 : Vec Ideal S5000x128 .f32) (j : S5000x128.Idx) :
    k1_pay4 (F := Ideal) x0 x1 x2 x3 x4 j
      = x0 j * Cert.Spec.c10 + Ideal.div (x1 j) (x2 j + Cert.Spec.eps6) + Ideal.div (x3 j) (x4 j + Cert.Spec.eps6) := by
  unfold k1_pay4
  simp only [shapeCast_self]
  rfl

/-- The column sums of a 5000-row block, kept as one row: at channel d the sum over the block's rows. -/
private theorem colsum_apply (src : FVec Ideal S5000x128 .f32) (u : Fin 1) (d : Fin 128) :
    shapeCast S1x128 (multiReduction (F := Ideal) .add [0] S128 src 0x00000000#32 reduces_S5000x128_S128 (.inl rfl) rfl)
      shapeCasts_S128_S1x128 (ix2 u d) = ∑ p : Fin 5000, src (ix2 p d) := by
  refine (shapeCast_a_1a_apply _ shapeCasts_S128_S1x128 u d).trans ?_
  refine (Ideal.multiReduction_add_single src 0x00000000#32 reduces_S5000x128_S128 (.inl rfl) rfl (ix1 d)).trans ?_
  refine Finset.sum_congr rfl fun p _ => congrArg src ?_
  funext a
  apply Fin.ext
  match a with
  | ⟨0, _⟩ => rfl
  | ⟨1, _⟩ => rfl

/-- The first accumulator's update: what it held plus the column sums of the node-value block. -/
private theorem pay5_apply (x0 x1 x2 x3 x4 : Vec Ideal S5000x128 .f32) (v : Vec Ideal S1x128 .f32) (u : Fin 1) (d : Fin 128) :
    k1_pay5 (F := Ideal) x0 x1 x2 x3 x4 v (ix2 u d)
      = v (ix2 u d) + ∑ p : Fin 5000, k1_pay4 (F := Ideal) x0 x1 x2 x3 x4 (ix2 p d) := by
  unfold k1_pay5
  simp only [shapeCast_self]
  exact congrArg (v (ix2 u d) + ·) (colsum_apply _ u d)

/-- The second accumulator's update: what it held plus the column sums of a block. -/
private theorem pay1_apply (v30 : FVec Ideal S1x128 .f32) (v31 : FVec Ideal S5000x128 .f32) (u : Fin 1) (d : Fin 128) :
    k1_pay1 (F := Ideal) v30 v31 (ix2 u d) = v30 (ix2 u d) + ∑ p : Fin 5000, v31 (ix2 p d) := by
  unfold k1_pay1
  exact congrArg (v30 (ix2 u d) + ·) (colsum_apply _ u d)

private theorem pay6_eq (v : Vec Ideal S1x128 .f32) : k1_pay6 (F := Ideal) v = v := by
  unfold k1_pay6
  exact shapeCast_self _ _

/-- The block whose column sums feed the second accumulator: the squares of the node value. -/
private theorem pay7_apply (x0 x1 x2 x3 x4 : Vec Ideal S5000x128 .f32) (j : S5000x128.Idx) :
    k1_pay7 (F := Ideal) x0 x1 x2 x3 x4 j
      = k1_pay4 (F := Ideal) x0 x1 x2 x3 x4 j * k1_pay4 (F := Ideal) x0 x1 x2 x3 x4 j := rfl

/-- The two reset rows are zero. -/
private theorem pay2_apply (j : S1x128.Idx) : k1_pay2 (F := Ideal) j = 0 := Ideal.ofBits_zero_f32
private theorem pay3_apply (j : S1x128.Idx) : k1_pay3 (F := Ideal) j = 0 := Ideal.ofBits_zero_f32

variable (V : (c : Dev nD) → (b : Ref sig .tc) → Buf (Elt Ideal) ((c : Thread nD τ).loc b))

/-- The node value the combine region computes from its five operand arrays. -/
abbrev x (c : Dev nD) : Cert.Spec.SN.Idx → EReal :=
  Cert.Spec.hpre (V c main_arg0) (V c main_v5) (V c main_v8) (V c main_v11) (V c main_v14)

/-! ## The blocks the points read: block t of each operand array is its rows 5000·t … 5000·t + 4999 -/

/-- The windows' block indices, decided over the ten points: the six 5000-row windows sit at block (t, 0), the two
    one-row accumulators at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

private theorem iblk_apply0 (c : Dev nD) (t : Fin cfg1.N) (p : Fin 5000) (q : Fin 128) (hr : 5000 * t.val + p.val < 50000) :
    (iblk1 V c 0 t : Vec Ideal S5000x128 .f32) (ix2 p q) = V c main_arg0 (ix2 ⟨5000 * t.val + p.val, hr⟩ q) := by
  have e0 : win1_0.index t (0 : Fin 2) = t.val := (idx_facts t).1
  have e1 : win1_0.index t (1 : Fin 2) = 0 := (idx_facts t).2.1
  unfold iblk1
  rw [View.read_apply]
  show V c main_arg0 _ = V c main_arg0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

private theorem iblk_apply1 (c : Dev nD) (t : Fin cfg1.N) (p : Fin 5000) (q : Fin 128) (hr : 5000 * t.val + p.val < 50000) :
    (iblk1 V c 1 t : Vec Ideal S5000x128 .f32) (ix2 p q) = V c main_v5 (ix2 ⟨5000 * t.val + p.val, hr⟩ q) := by
  have e0 : win1_1.index t (0 : Fin 2) = t.val := (idx_facts t).2.2.1
  have e1 : win1_1.index t (1 : Fin 2) = 0 := (idx_facts t).2.2.2.1
  unfold iblk1
  rw [View.read_apply]
  show V c main_v5 _ = V c main_v5 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * q.val = q.val; rw [e1]; omega

private theorem iblk_apply2 (c : Dev nD) (t : Fin cfg1.N) (p : Fin 5000) (q : Fin 128) (hr : 5000 * t.val + p.val < 50000) :
    (iblk1 V c 2 t : Vec Ideal S5000x128 .f32) (ix2 p q) = V c main_v8 (ix2 ⟨5000 * t.val + p.val, hr⟩ q) := by
  have e0 : win1_2.index t (0 : Fin 2) = t.val := (idx_facts t).2.2.2.2.1
  have e1 : win1_2.index t (1 : Fin 2) = 0 := (idx_facts t).2.2.2.2.2.1
  unfold iblk1
  rw [View.read_apply]
  show V c main_v8 _ = V c main_v8 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 128 + 1 * q.val = q.val; rw [e1]; omega

private theorem iblk_apply3 (c : Dev nD) (t : Fin cfg1.N) (p : Fin 5000) (q : Fin 128) (hr : 5000 * t.val + p.val < 50000) :
    (iblk1 V c 3 t : Vec Ideal S5000x128 .f32) (ix2 p q) = V c main_v11 (ix2 ⟨5000 * t.val + p.val, hr⟩ q) := by
  have e0 : win1_3.index t (0 : Fin 2) = t.val := (idx_facts t).2.2.2.2.2.2.1
  have e1 : win1_3.index t (1 : Fin 2) = 0 := (idx_facts t).2.2.2.2.2.2.2.1
  unfold iblk1
  rw [View.read_apply]
  show V c main_v11 _ = V c main_v11 _
  congr 1
  funext a
  apply Fin.ext
  match a with
  | ⟨0, _⟩ => show win1_3.index t (0 : Fin 2) * 5000 + 1 * p.val = 5000 * t.val + p.val; rw [e0]; omega
  | ⟨1, _⟩ => show win1_3.index t (1 : Fin 2) * 128 + 1 * q.val = q.val; rw [e1]; omega

private theorem iblk_apply4 (c : Dev nD) (t : Fin cfg1.N) (p : Fin 5000) (q : Fin 128) (hr : 5000 * t.val + p.val < 50000) :
    (iblk1 V c 4 t : Vec Ideal S5000x128 .f32) (ix2 p q) = V c main_v14 (ix2 ⟨5000 * t.val + p.val, hr⟩ q) := by
  have e0 : win1_4.index t (0 : Fin 2) = t.val := (idx_facts t).2.2.2.2.2.2.2.2.1
  have e1 : win1_4.index t (1 : Fin 2) = 0 := (idx_facts t).2.2.2.2.2.2.2.2.2.1
  unfold iblk1
  rw [View.read_apply]
  show V c main_v14 _ = V c main_v14 _
  congr 1
  funext a
  apply Fin.ext
  match a with
  | ⟨0, _⟩ => show win1_4.index t (0 : Fin 2) * 5000 + 1 * p.val = 5000 * t.val + p.val; rw [e0]; omega
  | ⟨1, _⟩ => show win1_4.index t (1 : Fin 2) * 128 + 1 * q.val = q.val; rw [e1]; omega

/-! ## What the outputs hold after each point, over the operand blocks -/

/-- The block of the node value that point t computes from the five operand blocks. -/
private abbrev hblk (c : Dev nD) (t : Fin cfg1.N) : Vec Ideal S5000x128 .f32 :=
  k1_pay4 (F := Ideal) (iblk1 V c 0 t) (iblk1 V c 1 t) (iblk1 V c 2 t) (iblk1 V c 3 t) (iblk1 V c 4 t)

/-- After the first point: the node-value block, and each accumulator reset and then added to once. -/
private theorem at_A (c : Dev nD) (t : Fin cfg1.N) (h0 : t.val % 10 = 0) :
    outsAt1 V c t.val t.isLt
      = (hblk V c t,
         k1_pay5 (F := Ideal) (iblk1 V c 0 t) (iblk1 V c 1 t) (iblk1 V c 2 t) (iblk1 V c 3 t) (iblk1 V c 4 t) (k1_pay2 (F := Ideal)),
         k1_pay1 (F := Ideal) (k1_pay6 (k1_pay3 (F := Ideal))) (k1_pay7 (F := Ideal) (iblk1 V c 0 t) (iblk1 V c 1 t) (iblk1 V c 2 t) (iblk1 V c 3 t) (iblk1 V c 4 t))) := by
  rw [outsAt1_A V c t h0,
    out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t),
    out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t),
    out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)]

/-- After a later point: the node-value block, and each accumulator added to over what the point before left. -/
private theorem at_B (c : Dev nD) (t : Fin cfg1.N) (h0 : ¬t.val % 10 = 0) :
    outsAt1 V c t.val t.isLt
      = (hblk V c t,
         k1_pay5 (F := Ideal) (iblk1 V c 0 t) (iblk1 V c 1 t) (iblk1 V c 2 t) (iblk1 V c 3 t) (iblk1 V c 4 t) (outsAt1 V c (t.val - 1) (Nat.lt_of_le_of_lt (Nat.sub_le _ _) t.isLt)).2.1,
         k1_pay1 (F := Ideal) (k1_pay6 (outsAt1 V c (t.val - 1) (Nat.lt_of_le_of_lt (Nat.sub_le _ _) t.isLt)).2.2)
           (k1_pay7 (F := Ideal) (iblk1 V c 0 t) (iblk1 V c 1 t) (iblk1 V c 2 t) (iblk1 V c 3 t) (iblk1 V c 4 t))) := by
  rw [outsAt1_B V c t h0,
    out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
    out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
    out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2]

/-- At every point the first output's block is the node-value block. -/
private theorem out5_eq (c : Dev nD) (t : Fin cfg1.N) : (outsAt1 V c t.val t.isLt).1 = hblk V c t := by
  by_cases h0 : t.val % 10 = 0
  · rw [at_A V c t h0]
  · rw [at_B V c t h0]

/-- Entry (p, q) of point t's node-value block is the node value at row 5000·t + p, channel q. -/
private theorem hblk_apply (c : Dev nD) (t : Fin cfg1.N) (p : Fin 5000) (q : Fin 128) (hr : 5000 * t.val + p.val < 50000) :
    hblk V c t (ix2 p q) = x V c (ix2 ⟨5000 * t.val + p.val, hr⟩ q) := by
  refine (pay4_apply _ _ _ _ _ (ix2 p q)).trans ?_
  rw [iblk_apply0 V c t p q hr, iblk_apply1 V c t p q hr, iblk_apply2 V c t p q hr, iblk_apply3 V c t p q hr,
    iblk_apply4 V c t p q hr]
  rfl

/-! ## The node-value array: every row lies in the block of point r / 5000 -/

private theorem flushed5 (c : Dev nD) (t : Fin cfg1.N) :
    (dat1 (F := Ideal) V c).flushed 5 t = ((cfg1.win 5).blk t).view.read (Elt Ideal) (x V c) := by
  have hN : cfg1.N = 10 := N_1
  have e0 : win1_5.index t (0 : Fin 2) = t.val := (idx_facts t).2.2.2.2.2.2.2.2.2.2.1
  have e1 : win1_5.index t (1 : Fin 2) = 0 := (idx_facts t).2.2.2.2.2.2.2.2.2.2.2.1
  show (cfg1.win 5).cut (grid1.coords t) ((dat1 V c).after 5 t) = _
  rw [after1_5, out5_eq]
  funext j
  obtain ⟨p, q, rfl⟩ : ∃ (p : Fin 5000) (q : Fin 128), j = ix2 p q := ⟨j 0, j 1, eq_ix2 j⟩
  have hr : 5000 * t.val + p.val < 50000 := by have := t.isLt; omega
  show hblk V c t (ix2 p q) = x V c (((cfg1.win 5).blk t).view.emb (ix2 p q))
  rw [hblk_apply V c t p q hr]
  congr 1
  funext a
  apply Fin.ext
  match a with
  | ⟨0, _⟩ => show 5000 * t.val + p.val = win1_5.index t (0 : Fin 2) * 5000 + 1 * p.val; rw [e0]; omega
  | ⟨1, _⟩ => show q.val = win1_5.index t (1 : Fin 2) * 128 + 1 * q.val; rw [e1]; omega

/-- The node-value array after the combine region. -/
theorem final5 (c : Dev nD) : (dat1 (F := Ideal) V c).arrAt 5 cfg1.N = x V c := by
  have hN : cfg1.N = 10 := N_1
  refine (dat1 (F := Ideal) V c).arrAt_eq_of_cover 5 (x V c) (fun t _ => flushed5 V c t) fun i => ?_
  have hi0 : (i 0).val < 50000 := (i 0).isLt
  have hi1 : (i 1).val < 128 := (i 1).isLt
  refine ⟨⟨(i 0).val / 5000, by rw [hN]; omega⟩, flush1_5 _, ?_⟩
  generalize ht : (⟨(i 0).val / 5000, by rw [hN]; omega⟩ : Fin cfg1.N) = t
  have htv : t.val = (i 0).val / 5000 := by rw [← ht]
  have e0 : win1_5.index t (0 : Fin 2) = t.val := (idx_facts t).2.2.2.2.2.2.2.2.2.2.1
  have e1 : win1_5.index t (1 : Fin 2) = 0 := (idx_facts t).2.2.2.2.2.2.2.2.2.2.2.1
  show i ∈ ((View.whole main_v15_0).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0, htv]; omega
  | ⟨1, _⟩ =>
    show win1_5.index t (1 : Fin 2) * 128 ≤ (i 1).val ∧ (i 1).val < win1_5.index t (1 : Fin 2) * 128 + 128
    rw [e1]; omega

/-! ## The two accumulators: after point n each holds its sum over the rows of blocks 0 … n -/

/-- The sum of the node value over the rows of point k's block, in channel d (zero past the grid). -/
private def bsum (c : Dev nD) (d : Fin 128) (k : ℕ) : EReal :=
  if h : k < cfg1.N then ∑ p : Fin 5000, hblk V c ⟨k, h⟩ (ix2 p d) else 0

/-- The sum of the squared node value over the rows of point k's block, in channel d (zero past the grid). -/
private def bsq (c : Dev nD) (d : Fin 128) (k : ℕ) : EReal :=
  if h : k < cfg1.N then ∑ p : Fin 5000, hblk V c ⟨k, h⟩ (ix2 p d) * hblk V c ⟨k, h⟩ (ix2 p d) else 0

private theorem bsum_of_lt (c : Dev nD) (d : Fin 128) (k : ℕ) (h : k < cfg1.N) :
    bsum V c d k = ∑ p : Fin 5000, hblk V c ⟨k, h⟩ (ix2 p d) := dif_pos h

private theorem bsq_of_lt (c : Dev nD) (d : Fin 128) (k : ℕ) (h : k < cfg1.N) :
    bsq V c d k = ∑ p : Fin 5000, hblk V c ⟨k, h⟩ (ix2 p d) * hblk V c ⟨k, h⟩ (ix2 p d) := dif_pos h

/-- The first accumulator after point n: reset to zero at point 0, then one block sum added per point. -/
private theorem acc6_eq (c : Dev nD) (d : Fin 128) : ∀ (n : ℕ) (h : n < cfg1.N),
    (outsAt1 V c n h).2.1 (ix2 0 d) = ∑ k ∈ Finset.range (n + 1), bsum V c d k
  | 0, h => by
    rw [at_A V c ⟨0, h⟩ rfl]
    dsimp only
    refine (pay5_apply _ _ _ _ _ _ 0 d).trans ?_
    rw [pay2_apply, zero_add, Finset.sum_range_one, bsum_of_lt V c d 0 h]
  | n + 1, h => by
    have hN : cfg1.N = 10 := N_1
    have hB : ¬(⟨n + 1, h⟩ : Fin cfg1.N).val % 10 = 0 := by dsimp only; omega
    rw [at_B V c ⟨n + 1, h⟩ hB]
    dsimp only
    refine (pay5_apply _ _ _ _ _ _ 0 d).trans ?_
    rw [Finset.sum_range_succ, bsum_of_lt V c d (n + 1) h, ← acc6_eq c d n (Nat.lt_of_succ_lt h)]
    rfl

/-- The second accumulator after point n, likewise over the squares. -/
private theorem acc7_eq (c : Dev nD) (d : Fin 128) : ∀ (n : ℕ) (h : n < cfg1.N),
    (outsAt1 V c n h).2.2 (ix2 0 d) = ∑ k ∈ Finset.range (n + 1), bsq V c d k
  | 0, h => by
    rw [at_A V c ⟨0, h⟩ rfl]
    dsimp only
    refine (pay1_apply _ _ 0 d).trans ?_
    rw [pay6_eq, pay3_apply, zero_add, Finset.sum_range_one, bsq_of_lt V c d 0 h]
    rfl
  | n + 1, h => by
    have hN : cfg1.N = 10 := N_1
    have hB : ¬(⟨n + 1, h⟩ : Fin cfg1.N).val % 10 = 0 := by dsimp only; omega
    rw [at_B V c ⟨n + 1, h⟩ hB]
    dsimp only
    refine (pay1_apply _ _ 0 d).trans ?_
    rw [pay6_eq, Finset.sum_range_succ, bsq_of_lt V c d (n + 1) h, ← acc7_eq c d n (Nat.lt_of_succ_lt h)]
    rfl

/-- The ten block sums are the sum over all rows. -/
private theorem total6 (c : Dev nD) (d : Fin 128) :
    ∑ k ∈ Finset.range 10, bsum V c d k = Cert.Spec.colSum (x V c) d := by
  have hN : cfg1.N = 10 := N_1
  show _ = ∑ r : Fin 50000, x V c (ix2 r d)
  rw [sum_rows (fun r => x V c (ix2 r d)), Finset.sum_range]
  refine Fintype.sum_congr _ _ fun k => ?_
  have hk : k.val < cfg1.N := by rw [hN]; exact k.isLt
  rw [bsum_of_lt V c d k.val hk]
  refine Fintype.sum_congr _ _ fun p => ?_
  exact hblk_apply V c ⟨k.val, hk⟩ p d (by have := k.isLt; have := p.isLt; show 5000 * k.val + p.val < 50000; omega)

private theorem total7 (c : Dev nD) (d : Fin 128) :
    ∑ k ∈ Finset.range 10, bsq V c d k = Cert.Spec.colSum (fun i => x V c i * x V c i) d := by
  have hN : cfg1.N = 10 := N_1
  show _ = ∑ r : Fin 50000, x V c (ix2 r d) * x V c (ix2 r d)
  rw [sum_rows (fun r => x V c (ix2 r d) * x V c (ix2 r d)), Finset.sum_range]
  refine Fintype.sum_congr _ _ fun k => ?_
  have hk : k.val < cfg1.N := by rw [hN]; exact k.isLt
  rw [bsq_of_lt V c d k.val hk]
  refine Fintype.sum_congr _ _ fun p => ?_
  have e := hblk_apply V c ⟨k.val, hk⟩ p d (by have := k.isLt; have := p.isLt; show 5000 * k.val + p.val < 50000; omega)
  rw [e]
  rfl

/-! ## The two channel-sum arrays: written back once, after the last point, which holds the sum over all ten blocks -/

/-- The one-row window 6 read at channel d through its block (the block is the whole [1, 128] array). -/
private theorem read_row6 (t : Fin cfg1.N) (G : Fin 128 → EReal) (d : Fin 128) :
    ((cfg1.win 6).blk t).view.read (Elt Ideal) (fun j => G (j 1)) (ix2 (0 : Fin 1) d) = G d := by
  have e1 : win1_6.index t (1 : Fin 2) = 0 := (idx_facts t).2.2.2.2.2.2.2.2.2.2.2.2.2.1
  show G ((((cfg1.win 6).blk t).view.emb (ix2 (0 : Fin 1) d)) (1 : Fin 2)) = G d
  congr 1
  apply Fin.ext
  show win1_6.index t (1 : Fin 2) * 128 + 1 * d.val = d.val
  rw [e1]; omega

private theorem flushed6 (c : Dev nD) (t : Fin cfg1.N) (hf : (cfg1.win 6).flush t = true) :
    (dat1 (F := Ideal) V c).flushed 6 t
      = ((cfg1.win 6).blk t).view.read (Elt Ideal) (fun j => Cert.Spec.colSum (x V c) (j 1)) := by
  have hN : cfg1.N = 10 := N_1
  have h9 : t.val = 9 := by have := (flush1_6 t).mp hf; have := t.isLt; omega
  have hacc : ∀ d : Fin 128, (outsAt1 V c t.val t.isLt).2.1 (ix2 (0 : Fin 1) d) = Cert.Spec.colSum (x V c) d := fun d => by
    rw [acc6_eq V c d t.val t.isLt, h9]
    exact total6 V c d
  show (cfg1.win 6).cut (grid1.coords t) ((dat1 V c).after 6 t) = _
  rw [after1_6]
  generalize (outsAt1 V c t.val t.isLt).2.1 = A at hacc ⊢
  funext j
  obtain ⟨u, d, rfl⟩ : ∃ (u : Fin 1) (d : Fin 128), j = ix2 u d := ⟨j 0, j 1, eq_ix2 j⟩
  obtain rfl : u = 0 := Subsingleton.elim _ _
  refine Eq.trans ?_ (read_row6 t (Cert.Spec.colSum (x V c)) d).symm
  exact hacc d

/-- The [1, 128] channel-sum array after the combine region: the ten block sums, accumulated over the grid, are the
    sum over all rows. -/
theorem final6 (c : Dev nD) :
    (dat1 (F := Ideal) V c).arrAt 6 cfg1.N = fun j => Cert.Spec.colSum (x V c) (j 1) := by
  have hN : cfg1.N = 10 := N_1
  refine (dat1 (F := Ideal) V c).arrAt_eq_of_cover 6 (fun j => Cert.Spec.colSum (x V c) (j 1)) (flushed6 V c) fun i => ?_
  have hi0 : (i 0).val < 1 := (i 0).isLt
  have hi1 : (i 1).val < 128 := (i 1).isLt
  refine ⟨⟨9, by rw [hN]; decide⟩, (flush1_6 _).mpr rfl, ?_⟩
  generalize (⟨9, by rw [hN]; decide⟩ : Fin cfg1.N) = t
  have e0 : win1_6.index t (0 : Fin 2) = 0 := (idx_facts t).2.2.2.2.2.2.2.2.2.2.2.2.1
  have e1 : win1_6.index t (1 : Fin 2) = 0 := (idx_facts t).2.2.2.2.2.2.2.2.2.2.2.2.2.1
  show i ∈ ((View.whole main_v15_1).slice (win1_6.rect t)).set
  rw [View.set_slice_whole, Rect.mem_set_unit]
  intro a
  match a with
  | ⟨0, _⟩ =>
    show win1_6.index t (0 : Fin 2) * 1 ≤ (i 0).val ∧ (i 0).val < win1_6.index t (0 : Fin 2) * 1 + 1
    rw [e0]; omega
  | ⟨1, _⟩ =>
    show win1_6.index t (1 : Fin 2) * 128 ≤ (i 1).val ∧ (i 1).val < win1_6.index t (1 : Fin 2) * 128 + 128
    rw [e1]; omega

/-- The one-row window 7 read at channel d through its block (the block is the whole [1, 128] array). -/
private theorem read_row7 (t : Fin cfg1.N) (G : Fin 128 → EReal) (d : Fin 128) :
    ((cfg1.win 7).blk t).view.read (Elt Ideal) (fun j => G (j 1)) (ix2 (0 : Fin 1) d) = G d := by
  have e1 : win1_7.index t (1 : Fin 2) = 0 := (idx_facts t).2.2.2.2.2.2.2.2.2.2.2.2.2.2.2
  show G ((((cfg1.win 7).blk t).view.emb (ix2 (0 : Fin 1) d)) (1 : Fin 2)) = G d
  congr 1
  apply Fin.ext
  show win1_7.index t (1 : Fin 2) * 128 + 1 * d.val = d.val
  rw [e1]; omega

private theorem flushed7 (c : Dev nD) (t : Fin cfg1.N) (hf : (cfg1.win 7).flush t = true) :
    (dat1 (F := Ideal) V c).flushed 7 t
      = ((cfg1.win 7).blk t).view.read (Elt Ideal) (fun j => Cert.Spec.colSum (fun i => x V c i * x V c i) (j 1)) := by
  have hN : cfg1.N = 10 := N_1
  have h9 : t.val = 9 := by have := (flush1_7 t).mp hf; have := t.isLt; omega
  have hacc : ∀ d : Fin 128, (outsAt1 V c t.val t.isLt).2.2 (ix2 (0 : Fin 1) d) = Cert.Spec.colSum (fun i => x V c i * x V c i) d := fun d => by
    rw [acc7_eq V c d t.val t.isLt, h9]
    exact total7 V c d
  show (cfg1.win 7).cut (grid1.coords t) ((dat1 V c).after 7 t) = _
  rw [after1_7]
  generalize (outsAt1 V c t.val t.isLt).2.2 = A at hacc ⊢
  funext j
  obtain ⟨u, d, rfl⟩ : ∃ (u : Fin 1) (d : Fin 128), j = ix2 u d := ⟨j 0, j 1, eq_ix2 j⟩
  obtain rfl : u = 0 := Subsingleton.elim _ _
  refine Eq.trans ?_ (read_row7 t (Cert.Spec.colSum (fun i => x V c i * x V c i)) d).symm
  exact hacc d

/-- The [1, 128] channel-sum-of-squares array after the combine region. -/
theorem final7 (c : Dev nD) :
    (dat1 (F := Ideal) V c).arrAt 7 cfg1.N = fun j => Cert.Spec.colSum (fun i => x V c i * x V c i) (j 1) := by
  have hN : cfg1.N = 10 := N_1
  refine (dat1 (F := Ideal) V c).arrAt_eq_of_cover 7 (fun j => Cert.Spec.colSum (fun i => x V c i * x V c i) (j 1)) (flushed7 V c) fun i => ?_
  have hi0 : (i 0).val < 1 := (i 0).isLt
  have hi1 : (i 1).val < 128 := (i 1).isLt
  refine ⟨⟨9, by rw [hN]; decide⟩, (flush1_7 _).mpr rfl, ?_⟩
  generalize (⟨9, by rw [hN]; decide⟩ : Fin cfg1.N) = t
  have e0 : win1_7.index t (0 : Fin 2) = 0 := (idx_facts t).2.2.2.2.2.2.2.2.2.2.2.2.2.2.1
  have e1 : win1_7.index t (1 : Fin 2) = 0 := (idx_facts t).2.2.2.2.2.2.2.2.2.2.2.2.2.2.2
  show i ∈ ((View.whole main_v15_2).slice (win1_7.rect t)).set
  rw [View.set_slice_whole, Rect.mem_set_unit]
  intro a
  match a with
  | ⟨0, _⟩ =>
    show win1_7.index t (0 : Fin 2) * 1 ≤ (i 0).val ∧ (i 0).val < win1_7.index t (0 : Fin 2) * 1 + 1
    rw [e0]; omega
  | ⟨1, _⟩ =>
    show win1_7.index t (1 : Fin 2) * 128 ≤ (i 1).val ∧ (i 1).val < win1_7.index t (1 : Fin 2) * 128 + 128
    rw [e1]; omega

end Cert.KernelIdeal.Region1

end
-- ==== Proof.Region2.lean ====
/-
  The last region's output array as a whole-array function of its six operand arrays.
  The region walks the 50000 nodes in 10 blocks of 5000 rows; at each block it loads the node value and the node features and
  the four [1, 128] rows (mean, variance, scale, shift — the same block (0, 0) at every point), and stores
  max ((x − mean)·rsqrt (var + ε₅)·scale + shift, 0) + h, each row broadcast down the block's rows.  Block t covers rows
  5000·t … 5000·t + 4999, so entry (r, k) of the output is written by block r / 5000 from entry (r, k) of the two arrays and
  entry (0, k) of the four rows.
-/
import proofs.«417057_j29661044146779_3_alg».proof.Proof.Gen.KernelIdeal.Frame
import proofs.«417057_j29661044146779_3_alg».proof.Proof.Spec
import Idealize.ShloMosaic.Lib.Pipeline.Value
import Idealize.ShloMosaic.Lib.ValueLayout

noncomputable section

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The body's arithmetic at an index -/

/-- The result block at row p, channel q: the row's entry less the channel's mean, times the inverse root of the
    channel's variance plus ε, times the scale, plus the shift, rectified, plus the residual entry. -/
private theorem pay_out (x0 x1 : Vec Ideal S5000x128 .f32) (x2 x3 x4 x5 : Vec Ideal S1x128 .f32)
    (p : Fin 5000) (q : Fin 128) :
    k2_pay1 x0 x1 x2 x3 x4 x5 (ix2 p q)
      = max ((x0 (ix2 p q) - x2 (ix2 0 q)) * Ideal.rsqrt (x3 (ix2 0 q) + Cert.Spec.eps5) * x4 (ix2 0 q) + x5 (ix2 0 q))
          Cert.Spec.c0 + x1 (ix2 p q) := by
  unfold k2_pay1
  simp only [shapeCast_self]
  simp only [addf_apply, maximumf_apply, mulf_apply, subf_apply, broadcastTo_1b_ab_apply, broadcast_apply]
  rfl

/-- A block of the result is the block of the whole-array function, once the two [5000, 128] input blocks are their
    arrays read at the same place (a place that keeps the channel) and the four [1, 128] blocks are their arrays. -/
private theorem block_out (X H : Cert.Spec.SN.Idx → EReal) (M W G B : S1x128.Idx → EReal)
    (x0 x1 : Vec Ideal S5000x128 .f32) (x2 x3 x4 x5 : Vec Ideal S1x128 .f32)
    (e : S5000x128.Idx → Cert.Spec.SN.Idx) (he : ∀ j, (e j 1).val = (j 1).val)
    (h0 : ∀ j, x0 j = X (e j)) (h1 : ∀ j, x1 j = H (e j))
    (h2 : ∀ k, x2 k = M k) (h3 : ∀ k, x3 k = W k) (h4 : ∀ k, x4 k = G k) (h5 : ∀ k, x5 k = B k)
    (j : S5000x128.Idx) :
    k2_pay1 x0 x1 x2 x3 x4 x5 j
      = Cert.Spec.out X H (fun d => M (ix2 0 d)) (fun d => W (ix2 0 d)) (fun d => G (ix2 0 d)) (fun d => B (ix2 0 d)) (e j) := by
  obtain ⟨p, q, rfl⟩ : ∃ (p : Fin 5000) (q : Fin 128), j = ix2 p q := ⟨j 0, j 1, eq_ix2 j⟩
  have hq : (e (ix2 p q) 1 : Fin 128) = q := Fin.ext (he (ix2 p q))
  rw [pay_out, h0, h1, h2, h3, h4, h5]
  unfold Cert.Spec.out
  simp only [hq]

/-! ## Where the blocks lie -/

private theorem hz : (![0, 0] : Fin 2 → Nat) = fun _ => 0 := funext fun a => by fin_cases a <;> rfl

/-- The blocks of the two [50000, 128] inputs and of the output at point t are rows 5000·t … 5000·t + 4999, all 128
    columns; the four [1, 128] inputs are one block each (decided over the grid). -/
private theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- The array index of element j of a [5000, 128] block at point t: row 5000·t + j₀, column j₁. -/
private def at2 (t : Fin cfg2.N) (j : S5000x128.Idx) : Cert.Spec.SN.Idx :=
  ix2 ⟨t.val * 5000 + (j 0).val, by have := t.isLt; have hN : cfg2.N = 10 := N_2; have hj : (j 0).val < 5000 := (j 0).isLt; omega⟩ ⟨(j 1).val, (j 1).isLt⟩

private theorem emb0 (t : Fin cfg2.N) (j : S5000x128.Idx) : ((cfg2.win 0).blk t).view.emb j = at2 t j := by
  obtain ⟨⟨e0, e1⟩, -⟩ := idx_facts t
  funext a; apply Fin.ext
  match a with
  | ⟨0, _⟩ => show win2_0.index t (0 : Fin 2) * 5000 + 1 * (j 0).val = t.val * 5000 + (j 0).val; rw [e0]; omega
  | ⟨1, _⟩ => show win2_0.index t (1 : Fin 2) * 128 + 1 * (j 1).val = (j 1).val; rw [e1]; omega

private theorem emb1 (t : Fin cfg2.N) (j : S5000x128.Idx) : ((cfg2.win 1).blk t).view.emb j = at2 t j := by
  obtain ⟨-, ⟨e0, e1⟩, -⟩ := idx_facts t
  funext a; apply Fin.ext
  match a with
  | ⟨0, _⟩ => show win2_1.index t (0 : Fin 2) * 5000 + 1 * (j 0).val = t.val * 5000 + (j 0).val; rw [e0]; omega
  | ⟨1, _⟩ => show win2_1.index t (1 : Fin 2) * 128 + 1 * (j 1).val = (j 1).val; rw [e1]; omega

private theorem emb6 (t : Fin cfg2.N) (j : S5000x128.Idx) : ((cfg2.win 6).blk t).view.emb j = at2 t j := by
  obtain ⟨-, -, -, -, -, -, ⟨e0, e1⟩⟩ := idx_facts t
  funext a; apply Fin.ext
  match a with
  | ⟨0, _⟩ => show win2_6.index t (0 : Fin 2) * 5000 + 1 * (j 0).val = t.val * 5000 + (j 0).val; rw [e0]; omega
  | ⟨1, _⟩ => show win2_6.index t (1 : Fin 2) * 128 + 1 * (j 1).val = (j 1).val; rw [e1]; omega

private theorem emb2 (t : Fin cfg2.N) (k : S1x128.Idx) : ((cfg2.win 2).blk t).view.emb k = k := by
  obtain ⟨-, -, ⟨e0, e1⟩, -⟩ := idx_facts t
  funext a; apply Fin.ext
  match a with
  | ⟨0, _⟩ => show win2_2.index t (0 : Fin 2) * 1 + 1 * (k 0).val = (k 0).val; rw [e0]; omega
  | ⟨1, _⟩ => show win2_2.index t (1 : Fin 2) * 128 + 1 * (k 1).val = (k 1).val; rw [e1]; omega

private theorem emb3 (t : Fin cfg2.N) (k : S1x128.Idx) : ((cfg2.win 3).blk t).view.emb k = k := by
  obtain ⟨-, -, -, ⟨e0, e1⟩, -⟩ := idx_facts t
  funext a; apply Fin.ext
  match a with
  | ⟨0, _⟩ => show win2_3.index t (0 : Fin 2) * 1 + 1 * (k 0).val = (k 0).val; rw [e0]; omega
  | ⟨1, _⟩ => show win2_3.index t (1 : Fin 2) * 128 + 1 * (k 1).val = (k 1).val; rw [e1]; omega

private theorem emb4 (t : Fin cfg2.N) (k : S1x128.Idx) : ((cfg2.win 4).blk t).view.emb k = k := by
  obtain ⟨-, -, -, -, ⟨e0, e1⟩, -⟩ := idx_facts t
  funext a; apply Fin.ext
  match a with
  | ⟨0, _⟩ => show win2_4.index t (0 : Fin 2) * 1 + 1 * (k 0).val = (k 0).val; rw [e0]; omega
  | ⟨1, _⟩ => show win2_4.index t (1 : Fin 2) * 128 + 1 * (k 1).val = (k 1).val; rw [e1]; omega

private theorem emb5 (t : Fin cfg2.N) (k : S1x128.Idx) : ((cfg2.win 5).blk t).view.emb k = k := by
  obtain ⟨-, -, -, -, -, ⟨e0, e1⟩, -⟩ := idx_facts t
  funext a; apply Fin.ext
  match a with
  | ⟨0, _⟩ => show win2_5.index t (0 : Fin 2) * 1 + 1 * (k 0).val = (k 0).val; rw [e0]; omega
  | ⟨1, _⟩ => show win2_5.index t (1 : Fin 2) * 128 + 1 * (k 1).val = (k 1).val; rw [e1]; omega

/-- Each input block at point t is its array read at the block's rows. -/
private theorem iblk_0 (c : Dev nD) (t : Fin cfg2.N) (j : S5000x128.Idx) :
    (iblk2 V c 0 t : Vec Ideal S5000x128 .f32) j = (V c main_v15_0 : Cert.Spec.SN.Idx → EReal) (at2 t j) := by
  rw [← emb0 t j]; rfl

private theorem iblk_1 (c : Dev nD) (t : Fin cfg2.N) (j : S5000x128.Idx) :
    (iblk2 V c 1 t : Vec Ideal S5000x128 .f32) j = (V c main_arg0 : Cert.Spec.SN.Idx → EReal) (at2 t j) := by
  rw [← emb1 t j]; rfl

private theorem iblk_2 (c : Dev nD) (t : Fin cfg2.N) (k : S1x128.Idx) :
    (iblk2 V c 2 t : Vec Ideal S1x128 .f32) k = (V c main_v24 : S1x128.Idx → EReal) k := by
  conv_rhs => rw [← emb2 t k]
  rfl

private theorem iblk_3 (c : Dev nD) (t : Fin cfg2.N) (k : S1x128.Idx) :
    (iblk2 V c 3 t : Vec Ideal S1x128 .f32) k = (V c main_v25 : S1x128.Idx → EReal) k := by
  conv_rhs => rw [← emb3 t k]
  rfl

private theorem iblk_4 (c : Dev nD) (t : Fin cfg2.N) (k : S1x128.Idx) :
    (iblk2 V c 4 t : Vec Ideal S1x128 .f32) k = (V c main_v26 : S1x128.Idx → EReal) k := by
  conv_rhs => rw [← emb4 t k]
  rfl

private theorem iblk_5 (c : Dev nD) (t : Fin cfg2.N) (k : S1x128.Idx) :
    (iblk2 V c 5 t : Vec Ideal S1x128 .f32) k = (V c main_v27 : S1x128.Idx → EReal) k := by
  conv_rhs => rw [← emb5 t k]
  rfl

/-! ## What a point writes back, and the cover -/

/-- What point t writes back to the result window is block t of the whole-array function. -/
private theorem flushed6_eq (c : Dev nD) (t : Fin cfg2.N) :
    (dat2 (F := Ideal) V c).flushed 6 t
      = ((cfg2.win 6).blk t).view.read (Elt Ideal)
          (Cert.Spec.out (V c main_v15_0) (V c main_arg0) (fun d => V c main_v24 (ix2 0 d)) (fun d => V c main_v25 (ix2 0 d))
            (fun d => V c main_v26 (ix2 0 d)) (fun d => V c main_v27 (ix2 0 d))) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  funext j
  show k2_pay1 (iblk2 V c 0 t) (iblk2 V c 1 t) (iblk2 V c 2 t) (iblk2 V c 3 t) (iblk2 V c 4 t) (iblk2 V c 5 t) j
    = Cert.Spec.out (V c main_v15_0) (V c main_arg0) (fun d => V c main_v24 (ix2 0 d)) (fun d => V c main_v25 (ix2 0 d))
        (fun d => V c main_v26 (ix2 0 d)) (fun d => V c main_v27 (ix2 0 d)) (((cfg2.win 6).blk t).view.emb j)
  rw [emb6 t j]
  exact block_out _ _ _ _ _ _ _ _ _ _ _ _ (at2 t) (fun _ => rfl) (iblk_0 V c t) (iblk_1 V c t) (iblk_2 V c t) (iblk_3 V c t)
    (iblk_4 V c t) (iblk_5 V c t) j

/-- An index of the array is in point t's block iff each coordinate is in the block's range on its axis. -/
private theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v28).slice (win2_6.rect t)).set ↔ _
  rw [View.set_slice_whole, Rect.mem_set_unit]
  exact Iff.rfl

/-- The point whose block holds row r: r / 5000. -/
private def ptOf (i : S50000x128.Idx) : Fin cfg2.N :=
  ⟨(i 0).val / 5000, by have hN : cfg2.N = 10 := N_2; have hi : (i 0).val < 50000 := (i 0).isLt; omega⟩

private theorem ptOf_val (i : S50000x128.Idx) : (ptOf i).val = (i 0).val / 5000 := rfl

/-- Every index of the array is in the block of the point its row names. -/
private theorem cover6 (i : S50000x128.Idx) :
    ∃ t : Fin cfg2.N, (cfg2.win 6).flush t = true ∧ i ∈ ((cfg2.win 6).blk t).view.set := by
  obtain ⟨-, -, -, -, -, -, ⟨e0, e1⟩⟩ := idx_facts (ptOf i)
  have hv := ptOf_val i
  have hi1 : (i 1).val < 128 := (i 1).isLt
  refine ⟨ptOf i, flush2_6 _, ?_⟩
  rw [mem_blk6]
  intro a
  match a with
  | ⟨0, _⟩ => show win2_6.index (ptOf i) (0 : Fin 2) * 5000 ≤ (i 0).val ∧ (i 0).val < win2_6.index (ptOf i) (0 : Fin 2) * 5000 + 5000; rw [e0]; omega
  | ⟨1, _⟩ => show win2_6.index (ptOf i) (1 : Fin 2) * 128 ≤ (i 1).val ∧ (i 1).val < win2_6.index (ptOf i) (1 : Fin 2) * 128 + 128; rw [e1]; omega

/-! ## The array after the region -/

/-- The result array after the last region: normalise, scale and shift, rectify, add the residual, every row
    by its own channel's statistics (the four [1, 128] operands read at row 0). -/
theorem final6 (c : Dev nD) :
    (dat2 (F := Ideal) V c).arrAt 6 cfg2.N
      = Cert.Spec.out (V c main_v15_0) (V c main_arg0) (fun d => V c main_v24 (ix2 0 d)) (fun d => V c main_v25 (ix2 0 d))
          (fun d => V c main_v26 (ix2 0 d)) (fun d => V c main_v27 (ix2 0 d)) :=
  (dat2 (F := Ideal) V c).arrAt_eq_of_cover 6
    (Cert.Spec.out (V c main_v15_0) (V c main_arg0) (fun d => V c main_v24 (ix2 0 d)) (fun d => V c main_v25 (ix2 0 d))
      (fun d => V c main_v26 (ix2 0 d)) (fun d => V c main_v27 (ix2 0 d)))
    (fun t _ => flushed6_eq V c t) cover6

end Cert.KernelIdeal.Region2

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.HostK.lean ====
/-
  The host stretches of the kernel's program, read back as values.
  Before the edge region: two row gathers of the node features, each jnp.take at its default mode — wrap a negative index,
  gather the (clamped) row, keep it where the wrapped index lies in [0, 49999] and the NaN word's reading elsewhere.  With
  every index in [0, 50000) the wrap and the clamp do nothing and the mask is all ones, so row k is row s k of the table.
  Between the edge region and the combine region: four scatter-adds into zero arrays (the segment sums).  Between the combine
  region and the last region: the two accumulated channel sums divided by N, the variance as second moment minus squared
  mean, and the four [128] vectors laid as [1, 128] rows.  A buffer no operation of a stretch writes is unchanged.
-/
import proofs.«417057_j29661044146779_3_alg».proof.Proof.Gen.KernelIdeal.Frame
import proofs.«417057_j29661044146779_3_alg».proof.Proof.Spec
import Idealize.ShloMosaic.Lib.StableHlo.Run
import Idealize.ShloMosaic.Lib.ValueLayout
import Idealize.ShloMosaic.Lib.IdealHost
import Idealize.ShloMosaic.Lib.ReduceAll
import proofs.«417057_j29661044146779_3_alg».proof.Proof.LibRowGather

noncomputable section

namespace Cert.KernelIdeal.HostK

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- A buffer none of the listed operations writes holds after them what it held before. -/
local macro "unwritten" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- jnp.take at its default mode, as @main's operations spell it: wrap a negative index by the table's height, gather the
    (clamped) row, and keep it where the wrapped index lies in [0, 49999], the NaN word's reading elsewhere. -/
def takeK (h : S50000x128.Idx → EReal) (s : IVec S600000 32) : S600000x128.Idx → EReal :=
  let w : IVec S600000 32 := select (cmpi .slt s (broadcastInDim S600000 ![] bcast_S_S600000 (constantI S_ 32 0#32)))
    (addi s (broadcastInDim S600000 ![] bcast_S_S600000 (constantI S_ 32 50000#32))) s
  let col : IVec S600000x1 32 := broadcastInDim S600000x1 ![0] bcast_S600000_S600000x1_0 w
  let ok : IVec S600000x1 1 := andi (cmpi .sge col (broadcastInDim S600000x1 ![] bcast_S_S600000x1 (constantI S_ 32 0#32)))
    (cmpi .sle col (broadcastInDim S600000x1 ![0, 1] bcast_S1x1_S600000x1_0_1 (broadcastInDim S1x1 ![1] bcast_S1_S1x1_1 (constantI S1 32 49999#32))))
  let okr : IVec S600000 1 := Host.reduce IntOp.andi ok (constantI S_ 1 1#1) reducesTo_S600000x1_S600000_d1 h_S_
  select (broadcastInDim S600000x128 ![0] bcast_S600000_S600000x128_0 okr)
    (Host.gather gather_S50000x128_S600000x1_S600000x128_1_0_n_n_0_1_1128 h col)
    (broadcastInDim S600000x128 ![] bcast_S_S600000x128 (constant (F := Ideal) S_ .f32 0x7FC00000#32))

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduce by `and` from 1 of an array of 1s is 1 at every index. -/
private theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-- A vector kept as an [n, 1] column reads, at (p, q), the vector at p. -/
private theorem col_apply {α : Type} {n : Nat} (h₁ : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h₁ v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

section InRange

variable (s : IVec S600000 32) (hs : ∀ k : Fin 600000, 0 ≤ (s (ix1 k)).toInt ∧ (s (ix1 k)).toInt < 50000)
include hs

/-- No index is negative: the wrap's select keeps the index. -/
private theorem wrap_id :
    (select (cmpi .slt s (broadcastInDim S600000 ![] bcast_S_S600000 (constantI S_ 32 0#32)))
      (addi s (broadcastInDim S600000 ![] bcast_S_S600000 (constantI S_ 32 50000#32))) s : IVec S600000 32) = s := by
  funext i
  obtain ⟨k, rfl⟩ : ∃ k : Fin 600000, i = ix1 k := ⟨i 0, eq_ix1 i⟩
  rw [select_apply]
  have h0 : (cmpi .slt s (broadcastInDim S600000 ![] bcast_S_S600000 (constantI S_ 32 0#32)) : IVec S600000 1) (ix1 k) = 0#1 := by
    refine eq_zero_of_ne_one fun e => ?_
    have := (IntOp.cmpi_slt (x := s (ix1 k)) (y := 0#32)).1 e
    have h1 := (hs k).1
    have h2 : (0#32 : BitVec 32).toInt = 0 := by decide
    omega
  rw [h0, select_zero]

/-- Every index lies in [0, 49999]: the range mask is 1 at every entry of the column. -/
private theorem ok_all (i : S600000x1.Idx) :
    (andi (cmpi .sge (broadcastInDim S600000x1 ![0] bcast_S600000_S600000x1_0 s) (broadcastInDim S600000x1 ![] bcast_S_S600000x1 (constantI S_ 32 0#32)))
      (cmpi .sle (broadcastInDim S600000x1 ![0] bcast_S600000_S600000x1_0 s)
        (broadcastInDim S600000x1 ![0, 1] bcast_S1x1_S600000x1_0_1 (broadcastInDim S1x1 ![1] bcast_S1_S1x1_1 (constantI S1 32 49999#32)))) : IVec S600000x1 1) i = 1#1 := by
  obtain ⟨p, q, rfl⟩ : ∃ (p : Fin 600000) (q : Fin 1), i = ix2 p q := ⟨i 0, i 1, eq_ix2 i⟩
  have hc : (broadcastInDim S600000x1 ![0] bcast_S600000_S600000x1_0 s : IVec S600000x1 32) (ix2 p q) = s (ix1 p) :=
    col_apply bcast_S600000_S600000x1_0 s p q
  have h1 := hs p
  refine IntOp.andi_eq_one.2 ⟨?_, ?_⟩
  · refine IntOp.cmpi_sge.2 ?_
    rw [hc]
    show (0#32 : BitVec 32).toInt ≤ _
    have h2 : (0#32 : BitVec 32).toInt = 0 := by decide
    omega
  · refine IntOp.cmpi_sle.2 ?_
    rw [hc]
    show _ ≤ (49999#32 : BitVec 32).toInt
    have h2 : (49999#32 : BitVec 32).toInt = 49999 := by decide
    omega

end InRange

/-- With every index in [0, 50000) nothing wraps, nothing is masked, nothing is clamped: row k of the result is row s k of the table. -/
theorem takeK_of_inrange (h : S50000x128.Idx → EReal) (s : IVec S600000 32)
    (hs : ∀ k : Fin 600000, 0 ≤ (s (ix1 k)).toInt ∧ (s (ix1 k)).toInt < 50000) :
    takeK h s = fun j => h (ix2 ⟨min (s (ix1 (j 0))).toInt.toNat 49999, by omega⟩ (j 1)) := by
  unfold takeK
  dsimp only
  rw [wrap_id s hs]
  funext j
  rw [select_apply]
  have hm : (broadcastInDim S600000x128 ![0] bcast_S600000_S600000x128_0
      (Host.reduce IntOp.andi
        (andi (cmpi .sge (broadcastInDim S600000x1 ![0] bcast_S600000_S600000x1_0 s) (broadcastInDim S600000x1 ![] bcast_S_S600000x1 (constantI S_ 32 0#32)))
          (cmpi .sle (broadcastInDim S600000x1 ![0] bcast_S600000_S600000x1_0 s)
            (broadcastInDim S600000x1 ![0, 1] bcast_S1x1_S600000x1_0_1 (broadcastInDim S1x1 ![1] bcast_S1_S1x1_1 (constantI S1 32 49999#32)))))
        (constantI S_ 1 1#1) reducesTo_S600000x1_S600000_d1 h_S_) : IVec S600000x128 1) j = 1#1 :=
    reduce_andi_one _ _ _ _ (ok_all s hs) rfl _
  rw [hm, select_one]
  obtain ⟨k, d, rfl⟩ : ∃ (k : Fin 600000) (d : Fin 128), j = ix2 k d := ⟨j 0, j 1, eq_ix2 j⟩
  have hc : (broadcastInDim S600000x1 ![0] bcast_S600000_S600000x1_0 s : IVec S600000x1 32) (ix2 k (0 : Fin 1)) = s (ix1 k) :=
    col_apply bcast_S600000_S600000x1_0 s k 0
  have hG : gather_S50000x128_S600000x1_S600000x128_1_0_n_n_0_1_1128
      = Cert.LibRowGather.rowDims 50000 128 600000 gather_S50000x128_S600000x1_S600000x128_1_0_n_n_0_1_1128_wf := rfl
  rw [hG, Cert.LibRowGather.gather_rows_apply (Nat.succ_pos _)]
  refine congrArg h (congrArg (fun r : Fin 50000 => ix2 r d) (Fin.ext ?_))
  show min _ (50000 - 1) = min (s (ix1 k)).toInt.toNat 49999
  rw [hc]

/-! The host stretch before the edge region: the two takes. -/

/-- The first take's 23 operations compose to `takeK` of the table and the source indices, whatever the memory before. -/
private theorem take0_eq (V : Valuation τ sig (Elt Ideal)) :
    StableHlo.after hostOps0 V (Proc.devRef .tc main_v0)
      = takeK (V (Proc.devRef .tc main_arg0)) (V (Proc.devRef .tc main_arg2)) := by
  after_results_simp
  simp only [StableHlo.TRef.ofBuf, StableHlo.TRef.toBuf, cast_eq]
  rfl

/-- The second take's, of the table and the destination indices. -/
private theorem take1_eq (V : Valuation τ sig (Elt Ideal)) :
    StableHlo.after hostOps0_1 V (Proc.devRef .tc main_v1)
      = takeK (V (Proc.devRef .tc main_arg0)) (V (Proc.devRef .tc main_arg3)) := by
  after_results_simp
  simp only [StableHlo.TRef.ofBuf, StableHlo.TRef.toBuf, cast_eq]
  rfl

theorem V2_v0 (c : Dev nD) :
    V2 (F := Ideal) m ρ c main_v0 = takeK (m ((c : Thread nD τ).loc main_arg0)) (m ((c : Thread nD τ).loc main_arg2)) :=
  calc W2 m ρ c (Proc.devRef .tc main_v0)
    _ = W1 m ρ c (Proc.devRef .tc main_v0) := by unwritten hostOps0_1
    _ = takeK (W0 m ρ c (Proc.devRef .tc main_arg0)) (W0 m ρ c (Proc.devRef .tc main_arg2)) := take0_eq (W0 m ρ c)
    _ = takeK (m ((c : Thread nD τ).loc main_arg0)) (m ((c : Thread nD τ).loc main_arg2)) := rfl

theorem V2_v1 (c : Dev nD) :
    V2 (F := Ideal) m ρ c main_v1 = takeK (m ((c : Thread nD τ).loc main_arg0)) (m ((c : Thread nD τ).loc main_arg3)) := by
  have e0 : W1 m ρ c (Proc.devRef .tc main_arg0) = m ((c : Thread nD τ).loc main_arg0) :=
    calc W1 m ρ c (Proc.devRef .tc main_arg0)
      _ = W0 m ρ c (Proc.devRef .tc main_arg0) := by unwritten hostOps0
      _ = m ((c : Thread nD τ).loc main_arg0) := rfl
  have e3 : W1 m ρ c (Proc.devRef .tc main_arg3) = m ((c : Thread nD τ).loc main_arg3) :=
    calc W1 m ρ c (Proc.devRef .tc main_arg3)
      _ = W0 m ρ c (Proc.devRef .tc main_arg3) := by unwritten hostOps0
      _ = m ((c : Thread nD τ).loc main_arg3) := rfl
  calc W2 m ρ c (Proc.devRef .tc main_v1)
    _ = takeK (W1 m ρ c (Proc.devRef .tc main_arg0)) (W1 m ρ c (Proc.devRef .tc main_arg3)) := take1_eq (W1 m ρ c)
    _ = takeK (m ((c : Thread nD τ).loc main_arg0)) (m ((c : Thread nD τ).loc main_arg3)) := by rw [e0, e3]

theorem V2_arg1 (c : Dev nD) : V2 (F := Ideal) m ρ c main_arg1 = m ((c : Thread nD τ).loc main_arg1) :=
  calc W2 m ρ c (Proc.devRef .tc main_arg1)
    _ = W1 m ρ c (Proc.devRef .tc main_arg1) := by unwritten hostOps0_1
    _ = W0 m ρ c (Proc.devRef .tc main_arg1) := by unwritten hostOps0
    _ = m ((c : Thread nD τ).loc main_arg1) := rfl

/-! The host stretch between the edge region and the combine region: four segment sums, each a scatter-add of an [E, D]
    array into a zero [N, D] array at the rows a column of indices names. -/

/-- The index column of a scatter: the [E] indices as [E, 1]. -/
abbrev idxCol (s : IVec S600000 32) : IVec S600000x1 32 := broadcastInDim S600000x1 ![0] bcast_S600000_S600000x1_0 s

/-- One segment sum. -/
abbrev seg (s : IVec S600000 32) (u : S600000x128.Idx → EReal) : S50000x128.Idx → EReal :=
  Ideal.hostScatterAdd scatter_S50000x128_S600000x1_S600000x128_1_0_0_1 (fun _ => Cert.Spec.c0) (idxCol s) u

/-- The two index vectors reach the end of the edge region as launched. -/
private theorem V3_arg2 (c : Dev nD) : V3 (F := Ideal) m ρ c main_arg2 = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by unwritten hostOps0_1
    _ = W0 m ρ c (Proc.devRef .tc main_arg2) := by unwritten hostOps0
    _ = m ((c : Thread nD τ).loc main_arg2) := rfl

private theorem V3_arg3 (c : Dev nD) : V3 (F := Ideal) m ρ c main_arg3 = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by unwritten hostOps0_1
    _ = W0 m ρ c (Proc.devRef .tc main_arg3) := by unwritten hostOps0
    _ = m ((c : Thread nD τ).loc main_arg3) := rfl

theorem V4_v5 (c : Dev nD) :
    V4 (F := Ideal) m ρ c main_v5 = seg (m ((c : Thread nD τ).loc main_arg3)) (V3 (F := Ideal) m ρ c main_v2_0) := by
  have e : V4 (F := Ideal) m ρ c main_v5 = seg (V3 (F := Ideal) m ρ c main_arg3) (V3 (F := Ideal) m ρ c main_v2_0) := by
    show StableHlo.after hostOps1 (W3 m ρ c) (Proc.devRef .tc main_v5) = _
    after_results; rfl
  rw [e, V3_arg3]

theorem V4_v8 (c : Dev nD) :
    V4 (F := Ideal) m ρ c main_v8 = seg (m ((c : Thread nD τ).loc main_arg3)) (V3 (F := Ideal) m ρ c main_v2_2) := by
  have e : V4 (F := Ideal) m ρ c main_v8 = seg (V3 (F := Ideal) m ρ c main_arg3) (V3 (F := Ideal) m ρ c main_v2_2) := by
    show StableHlo.after hostOps1 (W3 m ρ c) (Proc.devRef .tc main_v8) = _
    after_results; rfl
  rw [e, V3_arg3]

theorem V4_v11 (c : Dev nD) :
    V4 (F := Ideal) m ρ c main_v11 = seg (m ((c : Thread nD τ).loc main_arg2)) (V3 (F := Ideal) m ρ c main_v2_1) := by
  have e : V4 (F := Ideal) m ρ c main_v11 = seg (V3 (F := Ideal) m ρ c main_arg2) (V3 (F := Ideal) m ρ c main_v2_1) := by
    show StableHlo.after hostOps1 (W3 m ρ c) (Proc.devRef .tc main_v11) = _
    after_results; rfl
  rw [e, V3_arg2]

theorem V4_v14 (c : Dev nD) :
    V4 (F := Ideal) m ρ c main_v14 = seg (m ((c : Thread nD τ).loc main_arg2)) (V3 (F := Ideal) m ρ c main_v2_2) := by
  have e : V4 (F := Ideal) m ρ c main_v14 = seg (V3 (F := Ideal) m ρ c main_arg2) (V3 (F := Ideal) m ρ c main_v2_2) := by
    show StableHlo.after hostOps1 (W3 m ρ c) (Proc.devRef .tc main_v14) = _
    after_results; rfl
  rw [e, V3_arg2]

theorem V4_arg0 (c : Dev nD) : V4 (F := Ideal) m ρ c main_arg0 = m ((c : Thread nD τ).loc main_arg0) :=
  calc W4 m ρ c (Proc.devRef .tc main_arg0)
    _ = W3 m ρ c (Proc.devRef .tc main_arg0) := by unwritten hostOps1
    _ = W2 m ρ c (Proc.devRef .tc main_arg0) := W3_of_ne m ρ c main_arg0 (by decide)
    _ = W1 m ρ c (Proc.devRef .tc main_arg0) := by unwritten hostOps0_1
    _ = W0 m ρ c (Proc.devRef .tc main_arg0) := by unwritten hostOps0
    _ = m ((c : Thread nD τ).loc main_arg0) := rfl

/-! The host stretch between the combine region and the last region: the channel sums divided by N, the variance as
    second moment minus squared mean, and the four [128] vectors as [1, 128] rows. -/

theorem V6_v15_0 (c : Dev nD) : V6 (F := Ideal) m ρ c main_v15_0 = V5 (F := Ideal) m ρ c main_v15_0 := by
  show W6 m ρ c (Proc.devRef .tc main_v15_0) = W5 m ρ c (Proc.devRef .tc main_v15_0)
  unwritten hostOps2

theorem V6_arg0 (c : Dev nD) : V6 (F := Ideal) m ρ c main_arg0 = m ((c : Thread nD τ).loc main_arg0) :=
  calc W6 m ρ c (Proc.devRef .tc main_arg0)
    _ = W5 m ρ c (Proc.devRef .tc main_arg0) := by unwritten hostOps2
    _ = W4 m ρ c (Proc.devRef .tc main_arg0) :=
        (W5_arr m ρ c 0).trans (((dat1 (V4 m ρ) c).arrAt_in 0 rfl _).trans (A_eq1 (V4 m ρ) c 0))
    _ = m ((c : Thread nD τ).loc main_arg0) := V4_arg0 m ρ c

/-- A [128] vector kept as a [1, 128] row reads, at (u, d), the vector at d. -/
private theorem row_apply (x : S128.Idx → EReal) (j : S1x128.Idx) :
    shapeCast S1x128 x shapeCasts_S128_S1x128 j = x (ix1 (j 1)) :=
  (congrArg (shapeCast S1x128 x shapeCasts_S128_S1x128) (eq_ix2 j)).trans
    (shapeCast_a_1a_apply x shapeCasts_S128_S1x128 (j 0) (j 1))

/-- A [1, 128] row of channel sums as a [128] vector, each entry divided by the number of nodes. -/
private def overN (x : S1x128.Idx → EReal) : S128.Idx → EReal :=
  Host.divf (F := Ideal) (shapeCast S128 x shapeCasts_S1x128_S128)
    (broadcastInDim S128 ![] bcast_S_S128 (constant (F := Ideal) S_ .f32 0x47435000#32))

private theorem overN_apply (x : S1x128.Idx → EReal) (d : Fin 128) :
    overN x (ix1 d) = Ideal.div (x (ix2 0 d)) Cert.Spec.cN := by
  show Ideal.div (shapeCast S128 x shapeCasts_S1x128_S128 (ix1 d)) Cert.Spec.cN = _
  rw [shapeCast_1a_a_apply]

/-- The scale and the shift reach the end of the combine region as launched. -/
private theorem V5_arg4 (c : Dev nD) : V5 (F := Ideal) m ρ c main_arg4 = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by unwritten hostOps1
    _ = W2 m ρ c (Proc.devRef .tc main_arg4) := W3_of_ne m ρ c main_arg4 (by decide)
    _ = W1 m ρ c (Proc.devRef .tc main_arg4) := by unwritten hostOps0_1
    _ = W0 m ρ c (Proc.devRef .tc main_arg4) := by unwritten hostOps0
    _ = m ((c : Thread nD τ).loc main_arg4) := rfl

private theorem V5_arg5 (c : Dev nD) : V5 (F := Ideal) m ρ c main_arg5 = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by unwritten hostOps1
    _ = W2 m ρ c (Proc.devRef .tc main_arg5) := W3_of_ne m ρ c main_arg5 (by decide)
    _ = W1 m ρ c (Proc.devRef .tc main_arg5) := by unwritten hostOps0_1
    _ = W0 m ρ c (Proc.devRef .tc main_arg5) := by unwritten hostOps0
    _ = m ((c : Thread nD τ).loc main_arg5) := rfl

theorem V6_v24 (c : Dev nD) :
    V6 (F := Ideal) m ρ c main_v24 = fun j => Ideal.div (V5 (F := Ideal) m ρ c main_v15_1 (ix2 0 (j 1))) Cert.Spec.cN := by
  have e : V6 (F := Ideal) m ρ c main_v24
      = shapeCast S1x128 (overN (V5 (F := Ideal) m ρ c main_v15_1)) shapeCasts_S128_S1x128 := by
    show StableHlo.after hostOps2 (W5 m ρ c) (Proc.devRef .tc main_v24) = _
    after_results; rfl
  rw [e]; funext j; rw [row_apply]; exact overN_apply _ (j 1)

theorem V6_v25 (c : Dev nD) :
    V6 (F := Ideal) m ρ c main_v25 = fun j => Ideal.div (V5 (F := Ideal) m ρ c main_v15_2 (ix2 0 (j 1))) Cert.Spec.cN
      - Ideal.div (V5 (F := Ideal) m ρ c main_v15_1 (ix2 0 (j 1))) Cert.Spec.cN
        * Ideal.div (V5 (F := Ideal) m ρ c main_v15_1 (ix2 0 (j 1))) Cert.Spec.cN := by
  have e : V6 (F := Ideal) m ρ c main_v25
      = shapeCast S1x128 (subf (F := Ideal) (φ := .f32) (overN (V5 (F := Ideal) m ρ c main_v15_2))
          (mulf (F := Ideal) (φ := .f32) (overN (V5 (F := Ideal) m ρ c main_v15_1)) (overN (V5 (F := Ideal) m ρ c main_v15_1))))
          shapeCasts_S128_S1x128 := by
    show StableHlo.after hostOps2 (W5 m ρ c) (Proc.devRef .tc main_v25) = _
    after_results; rfl
  rw [e]; funext j; rw [row_apply, subf_apply, mulf_apply]
  exact congrArg₂ (· - ·) (overN_apply _ (j 1)) (congrArg₂ (· * ·) (overN_apply _ (j 1)) (overN_apply _ (j 1)))

theorem V6_v26 (c : Dev nD) :
    V6 (F := Ideal) m ρ c main_v26 = fun j => m ((c : Thread nD τ).loc main_arg4) (ix1 (j 1)) := by
  have e : V6 (F := Ideal) m ρ c main_v26
      = shapeCast S1x128 (V5 (F := Ideal) m ρ c main_arg4 : S128.Idx → EReal) shapeCasts_S128_S1x128 := by
    show StableHlo.after hostOps2 (W5 m ρ c) (Proc.devRef .tc main_v26) = _
    after_results; rfl
  rw [e, V5_arg4]; funext j; exact row_apply _ j

theorem V6_v27 (c : Dev nD) :
    V6 (F := Ideal) m ρ c main_v27 = fun j => m ((c : Thread nD τ).loc main_arg5) (ix1 (j 1)) := by
  have e : V6 (F := Ideal) m ρ c main_v27
      = shapeCast S1x128 (V5 (F := Ideal) m ρ c main_arg5 : S128.Idx → EReal) shapeCasts_S128_S1x128 := by
    show StableHlo.after hostOps2 (W5 m ρ c) (Proc.devRef .tc main_v27) = _
    after_results; rfl
  rw [e, V5_arg5]; funext j; exact row_apply _ j

end Cert.KernelIdeal.HostK

end
-- ==== Proof.KValue.lean ====
/-
  The kernel program's result buffer as one function of the launch contents of its arguments.
  The buffer contents at the boundaries between the host stretches and the three regions are threaded from the last one back:
  the last region's output is `out` of the node value, the node features and the [1, 128] statistics rows; those rows are the
  combine region's two accumulated channel sums divided by N (the variance: second moment minus squared mean); the combine
  region's operands are the four segment sums of the edge region's three outputs; the edge region's operands are the two
  gathered tables and the edge features.
-/
import proofs.«417057_j29661044146779_3_alg».proof.Proof.Gen.KernelIdeal.Frame
import proofs.«417057_j29661044146779_3_alg».proof.Proof.Spec
import proofs.«417057_j29661044146779_3_alg».proof.Proof.Region0
import proofs.«417057_j29661044146779_3_alg».proof.Proof.Region1
import proofs.«417057_j29661044146779_3_alg».proof.Proof.Region2
import proofs.«417057_j29661044146779_3_alg».proof.Proof.HostK

noncomputable section

namespace Cert.KernelIdeal.KValue

open Idealize.ShloMosaic Idealize.ShloMosaic.TcCoe Idealize.ShloMosaic.ValueIdx Idealize.SL.Sem Cert.KernelIdeal Cert.KernelIdeal.Gen Cert.KernelIdeal.HostK

variable (m : (ℓ : Loc nD τ sig) → Buf (Elt Ideal) ℓ) (ρ : Dev nD → PrngReg)

/-- The rows of the node features the edges' sources name, as the kernel's program takes them. -/
abbrev gsK (c : Dev nD) : S600000x128.Idx → EReal :=
  takeK (m ((c : Thread nD τ).loc main_arg0)) (m ((c : Thread nD τ).loc main_arg2))

/-- The rows the edges' destinations name. -/
abbrev gdK (c : Dev nD) : S600000x128.Idx → EReal :=
  takeK (m ((c : Thread nD τ).loc main_arg0)) (m ((c : Thread nD τ).loc main_arg3))

/-- The node value before normalisation, from the launch contents of the arguments: the edge region's three arrays
    summed per destination and per source, then combined with the node features. -/
def nodeK (c : Dev nD) : S50000x128.Idx → EReal :=
  Cert.Spec.hpre (m ((c : Thread nD τ).loc main_arg0))
    (seg (m ((c : Thread nD τ).loc main_arg3)) (Cert.Spec.numF (gsK m c) (gdK m c) (m ((c : Thread nD τ).loc main_arg1))))
    (seg (m ((c : Thread nD τ).loc main_arg3)) (Cert.Spec.gate (gsK m c) (gdK m c) (m ((c : Thread nD τ).loc main_arg1))))
    (seg (m ((c : Thread nD τ).loc main_arg2)) (Cert.Spec.numB (gsK m c) (gdK m c) (m ((c : Thread nD τ).loc main_arg1))))
    (seg (m ((c : Thread nD τ).loc main_arg2)) (Cert.Spec.gate (gsK m c) (gdK m c) (m ((c : Thread nD τ).loc main_arg1))))

/-- What the kernel's program returns, as one function of the launch contents of its arguments: the variance is the
    second moment minus the squared mean. -/
def kOut (c : Dev nD) : S50000x128.Idx → EReal :=
  Cert.Spec.out (nodeK m c) (m ((c : Thread nD τ).loc main_arg0)) (Cert.Spec.mean (nodeK m c)) (Cert.Spec.varK (nodeK m c))
    (fun d => m ((c : Thread nD τ).loc main_arg4) (ix1 d)) (fun d => m ((c : Thread nD τ).loc main_arg5) (ix1 d))

/-- The edge region's three output arrays at its exit, from the launch contents. -/
theorem V3_numF (c : Dev nD) :
    V3 (F := Ideal) m ρ c main_v2_0 = Cert.Spec.numF (gsK m c) (gdK m c) (m ((c : Thread nD τ).loc main_arg1)) := by
  refine (W3_arr (F := Ideal) m ρ c 3).trans ?_
  rw [Cert.KernelIdeal.Region0.final3 (V2 (F := Ideal) m ρ) c, V2_v0, V2_v1, V2_arg1]

theorem V3_numB (c : Dev nD) :
    V3 (F := Ideal) m ρ c main_v2_1 = Cert.Spec.numB (gsK m c) (gdK m c) (m ((c : Thread nD τ).loc main_arg1)) := by
  refine (W3_arr (F := Ideal) m ρ c 4).trans ?_
  rw [Cert.KernelIdeal.Region0.final4 (V2 (F := Ideal) m ρ) c, V2_v0, V2_v1, V2_arg1]

theorem V3_gate (c : Dev nD) :
    V3 (F := Ideal) m ρ c main_v2_2 = Cert.Spec.gate (gsK m c) (gdK m c) (m ((c : Thread nD τ).loc main_arg1)) := by
  refine (W3_arr (F := Ideal) m ρ c 5).trans ?_
  rw [Cert.KernelIdeal.Region0.final5 (V2 (F := Ideal) m ρ) c, V2_v0, V2_v1, V2_arg1]

/-- The combine region's node value over its entry contents is the node value from the launch contents. -/
theorem x_eq (c : Dev nD) : Cert.KernelIdeal.Region1.x (V4 (F := Ideal) m ρ) c = nodeK m c := by
  unfold Cert.KernelIdeal.Region1.x nodeK
  rw [V4_arg0, V4_v5, V4_v8, V4_v11, V4_v14, V3_numF, V3_numB, V3_gate]

/-- The combine region's three output arrays at its exit. -/
theorem V5_node (c : Dev nD) : V5 (F := Ideal) m ρ c main_v15_0 = nodeK m c :=
  (W5_arr (F := Ideal) m ρ c 5).trans ((Cert.KernelIdeal.Region1.final5 (V4 (F := Ideal) m ρ) c).trans (x_eq m ρ c))

theorem V5_sum (c : Dev nD) : V5 (F := Ideal) m ρ c main_v15_1 = fun j => Cert.Spec.colSum (nodeK m c) (j 1) := by
  refine (W5_arr (F := Ideal) m ρ c 6).trans ?_
  rw [Cert.KernelIdeal.Region1.final6 (V4 (F := Ideal) m ρ) c, x_eq]

theorem V5_sumsq (c : Dev nD) :
    V5 (F := Ideal) m ρ c main_v15_2 = fun j => Cert.Spec.colSum (fun i => nodeK m c i * nodeK m c i) (j 1) := by
  refine (W5_arr (F := Ideal) m ρ c 7).trans ?_
  rw [Cert.KernelIdeal.Region1.final7 (V4 (F := Ideal) m ρ) c, x_eq]

/-- THE RESULT BUFFER after the run is `kOut` of the launch contents of the arguments. -/
theorem W7_result (c : Dev nD) : W7 (F := Ideal) m ρ c (Proc.devRef .tc main_v28) = kOut m c := by
  refine (W7_arr (F := Ideal) m ρ c 6).trans ?_
  rw [Cert.KernelIdeal.Region2.final6 (V6 (F := Ideal) m ρ) c]
  unfold kOut
  rw [V6_v15_0, V6_arg0, V6_v24, V6_v25, V6_v26, V6_v27, V5_node, V5_sum, V5_sumsq]
  rfl

end Cert.KernelIdeal.KValue

end
-- ==== Proof.RefValue.lean ====
/-
  The reference program's result as one function of its arguments, in the vocabulary of the specification.
  Read stage by stage: the gathers of the scaled tables 0.1·h, −10·h, 100·h, −h are the scaled gathers of h (a gather only
  re-indexes its operand); 1 / (1 + exp (−x)) is the logistic function; the four scatter-adds into zero arrays are the segment
  sums; a host sum from the zero word is the sum over the rows; the [128] statistics broadcast along the rows are read at the
  row's channel.  With every index in [0, 50000) the gather reads exactly the named row (no wrap, no clamp).
-/
import proofs.«417057_j29661044146779_3_alg».proof.Proof.Gen.ReferenceIdeal.Run
import proofs.«417057_j29661044146779_3_alg».proof.Proof.Gen.ReferenceIdeal.Read
import proofs.«417057_j29661044146779_3_alg».proof.Proof.Spec
import proofs.«417057_j29661044146779_3_alg».proof.Proof.LibRowGather

noncomputable section

namespace Cert.ReferenceIdeal.RefValue

open Idealize.ShloMosaic Idealize.ShloMosaic.TcCoe Idealize.ShloMosaic.ValueIdx Idealize.SL.Sem Cert.ReferenceIdeal Cert.ReferenceIdeal.Gen

/-- The start-index column of jnp's `h[s]`: a negative index wrapped by the table's height, then the [E] vector as an [E, 1] column. -/
def idxWrapCol (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- jnp's `h[s]`: the gather of whole rows at the wrapped (and, by the gather's own rule, clamped) indices. -/
def gatherR (h : S50000x128.Idx → EReal) (s : IVec S600000 32) : S600000x128.Idx → EReal :=
  Host.gather gather_S50000x128_S600000x1_S600000x128_1_0_n_n_0_1_1128 h (idxWrapCol s)

/-- A signed comparison "x < 0" of a word whose signed value is not negative is the bit 0. -/
private theorem slt_zero_of_nonneg (x : BitVec 32) (hx : 0 ≤ x.toInt) : IntOp.cmpi .slt x 0#32 = 0#1 := by
  unfold IntOp.cmpi
  show BitVec.ofBool (x.slt 0#32) = 0#1
  have h0 : x.slt 0#32 = false := by
    rw [BitVec.slt]
    have : (0#32 : BitVec 32).toInt = 0 := by decide
    rw [this]
    exact decide_eq_false (by omega)
  rw [h0]; rfl

/-- The start-index column at (k, 0) is the k-th index itself when that index is not negative: the wrap's select keeps it. -/
private theorem idxWrapCol_apply (s : IVec S600000 32) (k : Fin 600000) (hk : 0 ≤ (s (ix1 k)).toInt) :
    idxWrapCol s (ix2 k (0 : Fin 1)) = s (ix1 k) := by
  unfold idxWrapCol
  rw [broadcastInDim_apply _ bcast_S600000_S600000x1_0 _ (ix2 k (0 : Fin 1)) (ix1 k) (fun a => match a with
    | ⟨0, _⟩ => by show k.val = if (600000 : Nat) = 1 then 0 else k.val; rw [if_neg (by decide)])]
  show Scalar.select (IntOp.cmpi .slt (s (ix1 k)) 0#32) _ (s (ix1 k)) = s (ix1 k)
  rw [slt_zero_of_nonneg _ hk, select_zero]

/-- With every index in [0, 50000) nothing wraps and nothing is clamped: row k of the result is row s k of the table. -/
theorem gatherR_of_inrange (h : S50000x128.Idx → EReal) (s : IVec S600000 32)
    (hs : ∀ k : Fin 600000, 0 ≤ (s (ix1 k)).toInt ∧ (s (ix1 k)).toInt < 50000) :
    gatherR h s = fun j => h (ix2 ⟨min (s (ix1 (j 0))).toInt.toNat 49999, by omega⟩ (j 1)) := by
  funext j
  obtain ⟨k, d, rfl⟩ : ∃ (k : Fin 600000) (d : Fin 128), j = ix2 k d := ⟨j 0, j 1, eq_ix2 j⟩
  unfold gatherR
  show Host.gather (Cert.LibRowGather.rowDims 50000 128 600000 gather_S50000x128_S600000x1_S600000x128_1_0_n_n_0_1_1128_wf) h
    (idxWrapCol s) (ix2 k d) = _
  rw [Cert.LibRowGather.gather_rows_apply (by decide)]
  have e := idxWrapCol_apply s k (hs k).1
  refine congrArg h (funext fun a => Fin.ext ?_)
  match a with
  | ⟨0, _⟩ =>
    show min (idxWrapCol s (ix2 k (0 : Fin 1))).toInt.toNat (50000 - 1) = min (s (ix1 k)).toInt.toNat 49999
    rw [e]
  | ⟨1, _⟩ => rfl

/-- The index column of a scatter: the [E] indices as [E, 1] (no wrap: jax.ops.segment_sum passes them as they are). -/
abbrev idxCol (s : IVec S600000 32) : IVec S600000x1 32 := broadcastInDim S600000x1 ![0] bcast_S600000_S600000x1_0 s

/-- One segment sum: the scatter-add of an [E, D] array into a zero [N, D] array at the rows the column names. -/
abbrev seg (s : IVec S600000 32) (u : S600000x128.Idx → EReal) : S50000x128.Idx → EReal :=
  Ideal.hostScatterAdd scatter_S50000x128_S600000x1_S600000x128_1_0_0_1 (fun _ => Cert.Spec.c0) (idxCol s) u

/-- The node value before normalisation, from the arguments. -/
def node (h : S50000x128.Idx → EReal) (e : S600000x128.Idx → EReal) (src dst : IVec S600000 32) : S50000x128.Idx → EReal :=
  Cert.Spec.hpre h
    (seg dst (Cert.Spec.numF (gatherR h src) (gatherR h dst) e)) (seg dst (Cert.Spec.gate (gatherR h src) (gatherR h dst) e))
    (seg src (Cert.Spec.numB (gatherR h src) (gatherR h dst) e)) (seg src (Cert.Spec.gate (gatherR h src) (gatherR h dst) e))

/-- What the reference returns, as one function of its arguments. -/
def refOut (h : S50000x128.Idx → EReal) (e : S600000x128.Idx → EReal) (src dst : IVec S600000 32) (γ β : S128.Idx → EReal) :
    S50000x128.Idx → EReal :=
  Cert.Spec.out (node h e src dst) h (Cert.Spec.mean (node h e src dst)) (Cert.Spec.varR (node h e src dst))
    (fun d => γ (ix1 d)) (fun d => β (ix1 d))

/-! ### The reference's stages, one layer at a time

Each stage of the reference, read at an index, as a function of the specification of earlier named pieces. -/

/-- The word 0x3F800000 is the number one. -/
private theorem one_word : Ideal.ofBits .f32 0x3F800000#32 = 1 := by
  simp [Ideal.ofBits, Ideal.ieee, -EReal.coe_mul]; norm_num

/-! The five scaled tables: h times a literal, entry by entry. -/

private theorem v1_eq (h : S50000x128.Idx → EReal) : Read.val_main_v1 (F := Ideal) h = fun i => h i * Cert.Spec.c10 := by
  funext i; rw [Read.val_main_v1_apply, Read.val_main_v0_apply, Read.val_main_cst_apply]; rfl
private theorem v3_eq (h : S50000x128.Idx → EReal) : Read.val_main_v3 (F := Ideal) h = fun i => h i * Cert.Spec.c100 := by
  funext i; rw [Read.val_main_v3_apply, Read.val_main_v2_apply, Read.val_main_cst_0_apply]; rfl
private theorem v5_eq (h : S50000x128.Idx → EReal) : Read.val_main_v5 (F := Ideal) h = fun i => h i * Cert.Spec.cm1 := by
  funext i; rw [Read.val_main_v5_apply, Read.val_main_v4_apply, Read.val_main_cst_1_apply]; rfl
private theorem v7_eq (h : S50000x128.Idx → EReal) : Read.val_main_v7 (F := Ideal) h = fun i => h i * Cert.Spec.c01 := by
  funext i; rw [Read.val_main_v7_apply, Read.val_main_v6_apply, Read.val_main_cst_2_apply]; rfl
private theorem v9_eq (h : S50000x128.Idx → EReal) : Read.val_main_v9 (F := Ideal) h = fun i => h i * Cert.Spec.cm10 := by
  funext i; rw [Read.val_main_v9_apply, Read.val_main_v8_apply, Read.val_main_cst_3_apply]; rfl

/-! The four gathers: a gather only re-indexes its operand, so the gather of a scaled table is the scaled gather. -/

private theorem v16_eq (h : S50000x128.Idx → EReal) (s : IVec S600000 32) :
    Read.val_main_v16 (F := Ideal) h s = fun j => gatherR h s j * Cert.Spec.c01 := by
  unfold Read.val_main_v16; rw [v7_eq]; rfl
private theorem v23_eq (h : S50000x128.Idx → EReal) (s : IVec S600000 32) :
    Read.val_main_v23 (F := Ideal) h s = fun j => gatherR h s j * Cert.Spec.cm10 := by
  unfold Read.val_main_v23; rw [v9_eq]; rfl
private theorem v38_eq (h : S50000x128.Idx → EReal) (s : IVec S600000 32) :
    Read.val_main_v38 (F := Ideal) h s = fun j => gatherR h s j * Cert.Spec.c100 := by
  unfold Read.val_main_v38; rw [v3_eq]; rfl
private theorem v55_eq (h : S50000x128.Idx → EReal) (s : IVec S600000 32) :
    Read.val_main_v55 (F := Ideal) h s = fun j => gatherR h s j * Cert.Spec.cm1 := by
  unfold Read.val_main_v55; rw [v5_eq]; rfl

/-- The gate: 1 / (1 + exp (−x)) is the logistic function of x. -/
private theorem v31_eq (h : S50000x128.Idx → EReal) (e : S600000x128.Idx → EReal) (src dst : IVec S600000 32) :
    Read.val_main_v31 (F := Ideal) h e src dst = Cert.Spec.gate (gatherR h src) (gatherR h dst) e := by
  funext j
  rw [Read.val_main_v31_apply, Read.val_main_v30_apply, Read.val_main_cst_8_apply, Read.val_main_v29_apply, Read.val_main_v28_apply,
    Read.val_main_cst_7_apply, Read.val_main_v27_apply, Read.val_main_v26_apply, Read.val_main_v25_apply, Read.val_main_v24_apply,
    v16_eq, v23_eq]
  show Ideal.div (Ideal.ofBits .f32 0x3F800000#32) (Ideal.ofBits .f32 0x3F800000#32
    + Ideal.exp (-(gatherR h src j * Cert.Spec.c01 + gatherR h dst j * Cert.Spec.cm10 + e j))) = _
  rw [one_word]; rfl

/-- The forward message. -/
private theorem v39_eq (h : S50000x128.Idx → EReal) (e : S600000x128.Idx → EReal) (src dst : IVec S600000 32) :
    Read.val_main_v39 (F := Ideal) h e src dst = Cert.Spec.numF (gatherR h src) (gatherR h dst) e := by
  funext j; rw [Read.val_main_v39_apply, v31_eq, v38_eq]; rfl
/-- The backward message. -/
private theorem v56_eq (h : S50000x128.Idx → EReal) (e : S600000x128.Idx → EReal) (src dst : IVec S600000 32) :
    Read.val_main_v56 (F := Ideal) h e src dst = Cert.Spec.numB (gatherR h src) (gatherR h dst) e := by
  funext j; rw [Read.val_main_v56_apply, v31_eq, v55_eq]; rfl

/-! The four zero arrays the segment sums start from. -/

private theorem v40_eq : Read.val_main_v40 (F := Ideal) = fun _ => Cert.Spec.c0 := by
  funext i; rw [Read.val_main_v40_apply, Read.val_main_cst_11_apply]; rfl
private theorem v43_eq : Read.val_main_v43 (F := Ideal) = fun _ => Cert.Spec.c0 := by
  funext i; rw [Read.val_main_v43_apply, Read.val_main_cst_12_apply]; rfl
private theorem v57_eq : Read.val_main_v57 (F := Ideal) = fun _ => Cert.Spec.c0 := by
  funext i; rw [Read.val_main_v57_apply, Read.val_main_cst_16_apply]; rfl
private theorem v60_eq : Read.val_main_v60 (F := Ideal) = fun _ => Cert.Spec.c0 := by
  funext i; rw [Read.val_main_v60_apply, Read.val_main_cst_17_apply]; rfl

/-! The four segment sums. -/

private theorem v42_eq (h : S50000x128.Idx → EReal) (e : S600000x128.Idx → EReal) (src dst : IVec S600000 32) :
    Read.val_main_v42 (F := Ideal) h e src dst = seg dst (Cert.Spec.numF (gatherR h src) (gatherR h dst) e) := by
  unfold Read.val_main_v42; rw [v39_eq, v40_eq]; rfl
private theorem v45_eq (h : S50000x128.Idx → EReal) (e : S600000x128.Idx → EReal) (src dst : IVec S600000 32) :
    Read.val_main_v45 (F := Ideal) h e src dst = seg dst (Cert.Spec.gate (gatherR h src) (gatherR h dst) e) := by
  unfold Read.val_main_v45; rw [v31_eq, v43_eq]; rfl
private theorem v59_eq (h : S50000x128.Idx → EReal) (e : S600000x128.Idx → EReal) (src dst : IVec S600000 32) :
    Read.val_main_v59 (F := Ideal) h e src dst = seg src (Cert.Spec.numB (gatherR h src) (gatherR h dst) e) := by
  unfold Read.val_main_v59; rw [v56_eq, v57_eq]; rfl
private theorem v62_eq (h : S50000x128.Idx → EReal) (e : S600000x128.Idx → EReal) (src dst : IVec S600000 32) :
    Read.val_main_v62 (F := Ideal) h e src dst = seg src (Cert.Spec.gate (gatherR h src) (gatherR h dst) e) := by
  unfold Read.val_main_v62; rw [v31_eq, v60_eq]; rfl

/-- The node value before normalisation. -/
private theorem v67_eq (h : S50000x128.Idx → EReal) (e : S600000x128.Idx → EReal) (src dst : IVec S600000 32) :
    Read.val_main_v67 (F := Ideal) h e src dst = node h e src dst := by
  funext i
  rw [Read.val_main_v67_apply, Read.val_main_v66_apply, v1_eq,
    Read.val_main_v48_apply, Read.val_main_v47_apply, Read.val_main_v46_apply, Read.val_main_cst_13_apply,
    Read.val_main_v65_apply, Read.val_main_v64_apply, Read.val_main_v63_apply, Read.val_main_cst_18_apply,
    v42_eq, v45_eq, v59_eq, v62_eq]
  rfl

/-! The summation index of the two column sums is (k, d). -/

private theorem idx68 (d : Fin 128) (k : Fin 50000) : Read.idx_main_v68 (ix1 d) k = ix2 k d :=
  funext fun a => Fin.ext (by match a with | ⟨0, _⟩ => rfl | ⟨1, _⟩ => rfl)
private theorem idx75 (d : Fin 128) (k : Fin 50000) : Read.idx_main_v75 (ix1 d) k = ix2 k d :=
  funext fun a => Fin.ext (by match a with | ⟨0, _⟩ => rfl | ⟨1, _⟩ => rfl)

/-- The batch mean of channel d. -/
private theorem v70_eq (h : S50000x128.Idx → EReal) (e : S600000x128.Idx → EReal) (src dst : IVec S600000 32) (d : Fin 128) :
    Read.val_main_v70 (F := Ideal) h e src dst (ix1 d) = Cert.Spec.mean (node h e src dst) d := by
  rw [Read.val_main_v70_apply, Read.val_main_v69_apply, Read.val_main_cst_20_apply, Read.val_main_v68_apply,
    Read.val_main_cst_19_apply, v67_eq]
  simp only [idx68, Ideal.hostDivf_def, Ideal.ofBits_def, Ideal.ofBits_zero_f32, zero_add]
  rfl

/-! A [128] vector laid along the rows of a [50000, 128] array reads, at (r, d), the vector at d. -/

private theorem v72_eq (h : S50000x128.Idx → EReal) (e : S600000x128.Idx → EReal) (src dst : IVec S600000 32) (i : S50000x128.Idx) :
    Read.val_main_v72 (F := Ideal) h e src dst i = Read.val_main_v70 (F := Ideal) h e src dst (ix1 (i 1)) := by
  rw [Read.val_main_v72_apply, Read.val_main_v71_apply]
  exact congrArg _ (funext fun a => Fin.ext (by match a with | ⟨0, _⟩ => rfl))
private theorem v79_eq (h : S50000x128.Idx → EReal) (e : S600000x128.Idx → EReal) (src dst : IVec S600000 32) (i : S50000x128.Idx) :
    Read.val_main_v79 (F := Ideal) h e src dst i = Read.val_main_v70 (F := Ideal) h e src dst (ix1 (i 1)) := by
  rw [Read.val_main_v79_apply, Read.val_main_v78_apply]
  exact congrArg _ (funext fun a => Fin.ext (by match a with | ⟨0, _⟩ => rfl))
private theorem v85_eq (h : S50000x128.Idx → EReal) (e : S600000x128.Idx → EReal) (src dst : IVec S600000 32) (i : S50000x128.Idx) :
    Read.val_main_v85 (F := Ideal) h e src dst i = Read.val_main_v83 (F := Ideal) h e src dst (ix1 (i 1)) := by
  rw [Read.val_main_v85_apply, Read.val_main_v84_apply]
  exact congrArg _ (funext fun a => Fin.ext (by match a with | ⟨0, _⟩ => rfl))
private theorem v88_eq (γ : S128.Idx → EReal) (i : S50000x128.Idx) :
    Read.val_main_v88 (F := Ideal) γ i = γ (ix1 (i 1)) := by
  rw [Read.val_main_v88_apply, Read.val_main_v87_apply]
  exact congrArg _ (funext fun a => Fin.ext (by match a with | ⟨0, _⟩ => rfl))
private theorem v91_eq (β : S128.Idx → EReal) (i : S50000x128.Idx) :
    Read.val_main_v91 (F := Ideal) β i = β (ix1 (i 1)) := by
  rw [Read.val_main_v91_apply, Read.val_main_v90_apply]
  exact congrArg _ (funext fun a => Fin.ext (by match a with | ⟨0, _⟩ => rfl))

/-- The batch variance of channel d, as the mean squared deviation from the mean. -/
private theorem v77_eq (h : S50000x128.Idx → EReal) (e : S600000x128.Idx → EReal) (src dst : IVec S600000 32) (d : Fin 128) :
    Read.val_main_v77 (F := Ideal) h e src dst (ix1 d) = Cert.Spec.varR (node h e src dst) d := by
  rw [Read.val_main_v77_apply, Read.val_main_v76_apply, Read.val_main_cst_22_apply, Read.val_main_v75_apply,
    Read.val_main_cst_21_apply]
  have hsum : ∀ k : Fin 50000, Read.val_main_v74 (F := Ideal) h e src dst (Read.idx_main_v75 (ix1 d) k)
      = (node h e src dst (ix2 k d) - Cert.Spec.mean (node h e src dst) d)
        * (node h e src dst (ix2 k d) - Cert.Spec.mean (node h e src dst) d) := by
    intro k
    rw [idx75 d k, Read.val_main_v74_apply, Read.val_main_v73_apply, v67_eq, v72_eq, v70_eq]
    rfl
  simp only [hsum, Ideal.hostDivf_def, Ideal.ofBits_def, Ideal.ofBits_zero_f32, zero_add]
  rfl

/-- The reference's last stage is that function: a gather of a scaled table is the scaled gather, jax's expansion of the
    logistic function is the logistic function, a host sum from the zero word is the sum, the [128] statistics laid along
    the rows read at the row's channel. -/
theorem result_eq (h : S50000x128.Idx → EReal) (e : S600000x128.Idx → EReal) (src dst : IVec S600000 32) (γ β : S128.Idx → EReal) :
    Cert.ReferenceIdeal.Read.val_main_v94 (F := Ideal) h e src dst γ β = refOut h e src dst γ β := by
  refine funext fun (i : S50000x128.Idx) => ?_
  rw [Read.val_main_v94_apply, Read.val_main_v93_apply, Read.val_main_call0_v0_apply, Read.val_main_call0_cst_apply,
    Read.val_main_v92_apply, v91_eq, Read.val_main_v89_apply, v88_eq, Read.val_main_v86_apply, v85_eq, Read.val_main_v83_apply,
    Read.val_main_v82_apply, Read.val_main_v81_apply, Read.val_main_cst_23_apply, v77_eq h e src dst (i 1), Read.val_main_v80_apply, v79_eq, v70_eq h e src dst (i 1),
    v67_eq]
  rfl

/-- The reference's run with its result named by `refOut` of the launch contents of the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ hr c => ⟨(hr c).1.trans ((Cert.ReferenceIdeal.Read.val_main_v94_eq (F := Ideal) m c).trans (result_eq _ _ _ _ _ _)), (hr c).2⟩)
    (Cert.ReferenceIdeal.Value.run (F := Ideal) m ρ)

end Cert.ReferenceIdeal.RefValue

end
-- ==== Proof.PreDecode.lean ====
/-
  The precondition read back.  It is the conjunction, over the four float arguments, of "every |entry| is below +∞", and,
  over the two index vectors, of "every entry s satisfies 0 ≤ s and s < 50000" as signed 32-bit comparisons, each conjunct an
  and-reduction over the whole array.  All ones means every conjunct holds at every index: an extended real whose absolute
  value is below +∞ is a real number, and the two signed comparisons bound the index's integer value.
-/
import proofs.«417057_j29661044146779_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.TcCoe Idealize.ShloMosaic.ValueIdx Idealize.SL.Sem Cert.Pre_finite_inputs

variable [Cert.Pre_finite_inputs.Facts]

/-- The scalar shape has one index. -/
private instance : Subsingleton S_.Idx := ⟨fun a b => funext fun d => d.elim0⟩

/-- The pattern 0x7F800000 (exponent all ones, significand zero, sign clear) denotes +∞. -/
private theorem inf_bits : Ideal.ofBits .f32 0x7F800000#32 = (⊤ : EReal) := by
  simp [Ideal.ofBits, Ideal.ieee]

/-- |x| < +∞ in the extended reals: x is neither +∞ nor -∞, so it is a real. -/
private theorem real_of_abs_lt (x : EReal)
    (hx : Ideal.cmp .olt (max x (-x)) (Ideal.ofBits .f32 0x7F800000#32) = 1#1) : ∃ r : ℝ, x = (r : EReal) := by
  rw [inf_bits] at hx
  unfold Ideal.cmp at hx
  rw [StableHlo.Predicate.ofBool_eq_one_iff] at hx
  simp only [decide_eq_true_eq] at hx
  induction x using EReal.rec with
  | bot => simp at hx
  | top => simp at hx
  | coe r => exact ⟨r, rfl⟩

/-- A conjunction of two one-bit arrays that is 1 at an index has both conjuncts 1 there. -/
private theorem andi_split {s : Shape} (a b : IVec s 1) (i : s.Idx) (hab : andi a b i = 1#1) : a i = 1#1 ∧ b i = 1#1 :=
  IntOp.andi_eq_one.1 hab

/-- The two signed comparisons 0 ≤ w and w < 50000 on a 32-bit word, as facts about its signed value. -/
private theorem range_of_bits (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (50000#32 : BitVec 32).toInt = 50000 := by decide
  rw [e0] at h0
  rw [e1] at h1
  exact ⟨h0, h1⟩

/-- What the precondition says of the arguments: every entry of the node and edge features is a real number, and every
    source and destination index lies in [0, 50000). (The scale and shift vectors are finite too; nothing below uses it.) -/
theorem decode (h : S50000x128.Idx → EReal) (e : S600000x128.Idx → EReal) (src dst : IVec S600000 32) (γ β : S128.Idx → EReal)
    (hp : Cert.Pre_finite_inputs.fn (F := Ideal) h e src dst γ β = fun _ => 1#1) :
    (∀ i, ∃ r : ℝ, h i = (r : EReal)) ∧ (∀ j, ∃ r : ℝ, e j = (r : EReal))
      ∧ (∀ k : Fin 600000, 0 ≤ (src (ix1 k)).toInt ∧ (src (ix1 k)).toInt < 50000)
      ∧ (∀ k : Fin 600000, 0 ≤ (dst (ix1 k)).toInt ∧ (dst (ix1 k)).toInt < 50000) := by
  -- the predicate at its one index, unfolded into its chain of operations
  have e0 := congrFun hp ix0
  dsimp only [Cert.Pre_finite_inputs.fn, Cert.Pre_finite_inputs.fn_part1] at e0
  -- the six conjuncts, outermost first: dst, src, β, γ, then e and h
  obtain ⟨e1, hdst⟩ := andi_split _ _ _ e0
  obtain ⟨e2, hsrc⟩ := andi_split _ _ _ e1
  obtain ⟨e3, -⟩ := andi_split _ _ _ e2
  obtain ⟨e4, -⟩ := andi_split _ _ _ e3
  obtain ⟨hh, he⟩ := andi_split _ _ _ e4
  refine ⟨fun i => ?_, fun j => ?_, fun k => ?_, fun k => ?_⟩
  · exact real_of_abs_lt (h i) (Host.reduce_andi_all _ _ _ _ _ hh i)
  · exact real_of_abs_lt (e j) (Host.reduce_andi_all _ _ _ _ _ he j)
  · obtain ⟨a0, a1⟩ := andi_split _ _ _ (Host.reduce_andi_all _ _ _ _ _ hsrc (ix1 k))
    exact range_of_bits (src (ix1 k)) a0 a1
  · obtain ⟨a0, a1⟩ := andi_split _ _ _ (Host.reduce_andi_all _ _ _ _ _ hdst (ix1 k))
    exact range_of_bits (dst (ix1 k)) a0 a1

end Cert.PreDecode

end
-- ==== Proof.Math.lean ====
/-
  The real-number facts behind the equivalence, on the extended reals.
  Realness is preserved by every step up to the node value: the literals are finite dyadics; the logistic function of a real
  is a real in (0, 1); sums and products of reals are real; a scatter-add into the zero array is zero plus a finite sum of
  its updates; and a quotient by ε₆ plus a nonnegative real divides by a positive real.
  For real data x₁ … x_N with mean μ = (Σ x)/N:  (Σ x²)/N − μ² = (Σ (x − μ)²)/N  (expand the square; Σ x = N·μ).
-/
import proofs.«417057_j29661044146779_3_alg».proof.Proof.Spec
import Idealize.ShloMosaic.PureOps.Ideal
import Idealize.ShloMosaic.Lib.ValueIdx
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Exp
import Mathlib.Tactic.Ring
import Mathlib.Tactic.FieldSimp
import Mathlib.Tactic.Positivity

noncomputable section

namespace Cert.Math

open Idealize.ShloMosaic Idealize.ShloMosaic.TcCoe Idealize.ShloMosaic.ValueIdx Idealize.SL.Sem Cert.Spec

/-- An extended real that is a real number. -/
def IsReal (x : EReal) : Prop := ∃ r : ℝ, x = (r : EReal)

/-- An extended real that is a nonnegative real number. -/
def IsNonneg (x : EReal) : Prop := ∃ r : ℝ, 0 ≤ r ∧ x = (r : EReal)

theorem IsNonneg.isReal {x : EReal} (h : IsNonneg x) : IsReal x := h.elim fun r hr => ⟨r, hr.2⟩

/-! ### The literal constants are real numbers -/

private theorem c01_real : IsReal c01 := by
  unfold IsReal; simp [Ideal.ofBits, Ideal.ieee, -EReal.coe_mul]

private theorem cm10_real : IsReal cm10 := by
  unfold IsReal; simp [Ideal.ofBits, Ideal.ieee, -EReal.coe_mul]
  exact ⟨_, (EReal.coe_neg _).symm⟩

private theorem c100_real : IsReal c100 := by
  unfold IsReal; simp [Ideal.ofBits, Ideal.ieee, -EReal.coe_mul]

private theorem cm1_real : IsReal cm1 := by
  unfold IsReal; simp [Ideal.ofBits, Ideal.ieee, -EReal.coe_mul]
  exact ⟨_, (EReal.coe_neg _).symm⟩

private theorem c10_real : IsReal c10 := by
  unfold IsReal; simp [Ideal.ofBits, Ideal.ieee, -EReal.coe_mul]

/-- ε₆ is a positive real. -/
private theorem eps6_pos : ∃ r : ℝ, 0 < r ∧ eps6 = (r : EReal) := by
  simp [Ideal.ofBits, Ideal.ieee, -EReal.coe_mul]

/-- The row count is the real number 50000. -/
private theorem cN_eq : cN = ((50000 : ℝ) : EReal) := by
  simp [Ideal.ofBits, Ideal.ieee, -EReal.coe_mul]; norm_num

/-- The zero word is zero. -/
private theorem c0_eq : c0 = 0 := by
  simp [Ideal.ofBits, Ideal.ieee]

/-! ### Reals are closed under the operations used -/

private theorem IsReal.add {x y : EReal} (hx : IsReal x) (hy : IsReal y) : IsReal (x + y) := by
  obtain ⟨a, rfl⟩ := hx; obtain ⟨b, rfl⟩ := hy; exact ⟨a + b, (EReal.coe_add a b).symm⟩

private theorem IsReal.mul {x y : EReal} (hx : IsReal x) (hy : IsReal y) : IsReal (x * y) := by
  obtain ⟨a, rfl⟩ := hx; obtain ⟨b, rfl⟩ := hy; exact ⟨a * b, (EReal.coe_mul a b).symm⟩

private theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

private theorem isReal_zero : IsReal 0 := ⟨0, EReal.coe_zero.symm⟩

private theorem isNonneg_zero : IsNonneg 0 := ⟨0, le_refl 0, EReal.coe_zero.symm⟩

/-- A finite sum of reals is a real. -/
private theorem isReal_sum {ι : Type*} (s : Finset ι) (f : ι → EReal) (h : ∀ j ∈ s, IsReal (f j)) :
    IsReal (∑ j ∈ s, f j) :=
  Finset.sum_induction f IsReal (fun _ _ => IsReal.add) isReal_zero h

/-- A finite sum of nonnegative reals is a nonnegative real. -/
private theorem isNonneg_sum {ι : Type*} (s : Finset ι) (f : ι → EReal) (h : ∀ j ∈ s, IsNonneg (f j)) :
    IsNonneg (∑ j ∈ s, f j) :=
  Finset.sum_induction f IsNonneg (fun _ _ => IsNonneg.add) isNonneg_zero h

/-- The coercion of the reals commutes with finite sums. -/
private theorem coe_sum {ι : Type*} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A real divided by a positive real is a real. -/
private theorem isReal_div_eps {x y : EReal} (hx : IsReal x) (hy : IsNonneg y) : IsReal (Ideal.div x (y + eps6)) := by
  obtain ⟨a, rfl⟩ := hx
  obtain ⟨b, hb, rfl⟩ := hy
  obtain ⟨ε, hε, he⟩ := eps6_pos
  rw [he, ← EReal.coe_add, Ideal.div_coe (by positivity : b + ε ≠ 0), ← EReal.coe_mul]
  exact ⟨_, rfl⟩

/-- The gate of real inputs is a real number in (0, 1); nonnegativity is what the segment sums need. -/
theorem gate_nonneg (gs gd e : SE.Idx → EReal) (hgs : ∀ j, IsReal (gs j)) (hgd : ∀ j, IsReal (gd j)) (he : ∀ j, IsReal (e j)) :
    ∀ j, IsNonneg (gate gs gd e j) := by
  intro j
  obtain ⟨r, hr⟩ := ((hgs j).mul c01_real).add ((hgd j).mul cm10_real) |>.add (he j)
  unfold gate
  rw [hr, Ideal.logistic_coe]
  exact ⟨_, by positivity, rfl⟩

theorem numF_real (gs gd e : SE.Idx → EReal) (hgs : ∀ j, IsReal (gs j)) (hgd : ∀ j, IsReal (gd j)) (he : ∀ j, IsReal (e j)) :
    ∀ j, IsReal (numF gs gd e j) := by
  intro j
  unfold numF
  exact (gate_nonneg gs gd e hgs hgd he j).isReal.mul ((hgs j).mul c100_real)

theorem numB_real (gs gd e : SE.Idx → EReal) (hgs : ∀ j, IsReal (gs j)) (hgd : ∀ j, IsReal (gd j)) (he : ∀ j, IsReal (e j)) :
    ∀ j, IsReal (numB gs gd e j) := by
  intro j
  unfold numB
  exact (gate_nonneg gs gd e hgs hgd he j).isReal.mul ((hgd j).mul cm1_real)

/-- A scatter-add of real updates into the zero array is real everywhere: each entry is zero plus a finite sum of reals. -/
theorem seg_real {si : Shape} (d : ScatterDims SN si SE) {w : Nat} (idx : IVec si w) (u : SE.Idx → EReal)
    (hu : ∀ j, IsReal (u j)) : ∀ i, IsReal (Ideal.hostScatterAdd d (fun _ => c0) idx u i) := by
  intro i
  unfold Ideal.hostScatterAdd
  exact IsReal.add (c0_eq ▸ isReal_zero) (isReal_sum _ _ fun j _ => hu j)

/-- A scatter-add of nonnegative real updates into the zero array is a nonnegative real everywhere. -/
theorem seg_nonneg {si : Shape} (d : ScatterDims SN si SE) {w : Nat} (idx : IVec si w) (u : SE.Idx → EReal)
    (hu : ∀ j, IsNonneg (u j)) : ∀ i, IsNonneg (Ideal.hostScatterAdd d (fun _ => c0) idx u i) := by
  intro i
  unfold Ideal.hostScatterAdd
  exact IsNonneg.add (c0_eq ▸ isNonneg_zero) (isNonneg_sum _ _ fun j _ => hu j)

/-- The node value is real when its inputs are and the two denominators' sums are nonnegative (so that, ε₆ being a
    positive real, neither quotient divides by zero). -/
theorem hpre_real (h nf df nb db : SN.Idx → EReal) (hh : ∀ i, IsReal (h i)) (hnf : ∀ i, IsReal (nf i))
    (hdf : ∀ i, IsNonneg (df i)) (hnb : ∀ i, IsReal (nb i)) (hdb : ∀ i, IsNonneg (db i)) :
    ∀ i, IsReal (hpre h nf df nb db i) := by
  intro i
  unfold hpre
  exact (((hh i).mul c10_real).add (isReal_div_eps (hnf i) (hdf i))).add (isReal_div_eps (hnb i) (hdb i))

/-- The variance identity over the reals, for any finite index type of nonzero size N:
    (Σ g²)/N − ((Σ g)/N)² = (Σ (g − (Σ g)/N)²)/N. -/
private theorem var_real {ι : Type*} [Fintype ι] (g : ι → ℝ) (N : ℝ) (hN : N = Fintype.card ι) (hN0 : N ≠ 0) :
    (∑ r, g r * g r) / N - (∑ r, g r) / N * ((∑ r, g r) / N)
      = (∑ r, (g r - (∑ r, g r) / N) * (g r - (∑ r, g r) / N)) / N := by
  set S := ∑ r, g r with hS
  have hexp : ∀ r, (g r - S / N) * (g r - S / N) = g r * g r - 2 * (S / N) * g r + S / N * (S / N) := by
    intro r; ring
  simp_rw [hexp]
  rw [Finset.sum_add_distrib, Finset.sum_sub_distrib, ← Finset.mul_sum, Finset.sum_const, Finset.card_univ,
    nsmul_eq_mul, ← hN, ← hS]
  field_simp
  ring

/-- The same identity on the extended reals, for real data. -/
private theorem var_ereal {ι : Type*} [Fintype ι] (g : ι → ℝ) (N : ℝ) (hN : N = Fintype.card ι) (hN0 : N ≠ 0) :
    Ideal.div (∑ r, (g r : EReal) * (g r : EReal)) (N : EReal)
        - Ideal.div (∑ r, (g r : EReal)) (N : EReal) * Ideal.div (∑ r, (g r : EReal)) (N : EReal)
      = Ideal.div (∑ r, ((g r : EReal) - Ideal.div (∑ r, (g r : EReal)) (N : EReal))
          * ((g r : EReal) - Ideal.div (∑ r, (g r : EReal)) (N : EReal))) (N : EReal) := by
  have hdiv : ∀ a : ℝ, Ideal.div (a : EReal) (N : EReal) = ((a / N : ℝ) : EReal) := by
    intro a
    rw [Ideal.div_coe hN0, ← EReal.coe_mul, mul_one_div]
  have hs1 : ∑ r, (g r : EReal) = ((∑ r, g r : ℝ) : EReal) := coe_sum _ _
  have hs2 : ∑ r, (g r : EReal) * (g r : EReal) = ((∑ r, g r * g r : ℝ) : EReal) := by
    simp only [← EReal.coe_mul]; exact coe_sum _ _
  rw [hs2, hs1, hdiv, hdiv]
  simp only [← EReal.coe_sub, ← EReal.coe_mul]
  rw [coe_sum, hdiv, var_real g N hN hN0]

/-- For real data the second moment minus the squared mean is the mean squared deviation:
    (Σ x²)/N − ((Σ x)/N)² = (Σ (x − (Σ x)/N)²)/N with N = 50000 the number of rows. -/
theorem var_eq (x : SN.Idx → EReal) (hx : ∀ i, IsReal (x i)) : varK x = varR x := by
  funext d
  choose f hf using hx
  obtain rfl : x = fun i => (f i : EReal) := funext hf
  simp only [varK, varR, mean, colSum]
  rw [cN_eq]
  exact var_ereal (fun r : Fin 50000 => f (ix2 r d)) 50000 (by simp) (by norm_num)

end Cert.Math

end
-- ==== Proof.Bridge.lean ====
/-
  The kernel's value and the reference's value are one array under the precondition.
-/
import proofs.«417057_j29661044146779_3_alg».proof.Defs
import proofs.«417057_j29661044146779_3_alg».proof.Proof.KValue
import proofs.«417057_j29661044146779_3_alg».proof.Proof.RefValue
import proofs.«417057_j29661044146779_3_alg».proof.Proof.PreDecode
import proofs.«417057_j29661044146779_3_alg».proof.Proof.Math
import proofs.«417057_j29661044146779_3_alg».proof.Proof.Gen.Pre_finite_inputs

noncomputable section

namespace Cert.Bridge

open Idealize.ShloMosaic Idealize.ShloMosaic.TcCoe Idealize.ShloMosaic.ValueIdx Idealize.SL.Sem Cert.Math

open Cert.KernelIdeal (nD τ sig main_arg0 main_arg1 main_arg2 main_arg3 main_arg4 main_arg5)

/-- Under the precondition the two programs return the same array.  The gathered rows agree because every index is
    in range (the kernel's fill is never taken, the reference's clamp never binds); the segment sums are one function of
    equal updates; the node value is then real everywhere (real inputs, gates in (0, 1), denominators ε₆ plus a sum of
    nonnegative reals), and for real data the two forms of the variance are one number. -/
theorem kOut_eq_refOut (m : (ℓ : Loc nD τ sig) → Buf (Elt Ideal) ℓ) (c : Dev nD)
    (hp : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.KernelIdeal.KValue.kOut m c
      = Cert.ReferenceIdeal.RefValue.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  obtain ⟨hh, he, hs, hd⟩ := Cert.PreDecode.decode _ _ _ _ _ _ hp
  have gs : Cert.KernelIdeal.KValue.gsK m c
      = Cert.ReferenceIdeal.RefValue.gatherR (m ((c.tc : Thread nD τ).loc main_arg0)) (m ((c.tc : Thread nD τ).loc main_arg2)) :=
    (Cert.KernelIdeal.HostK.takeK_of_inrange _ _ hs).trans (Cert.ReferenceIdeal.RefValue.gatherR_of_inrange _ _ hs).symm
  have gd : Cert.KernelIdeal.KValue.gdK m c
      = Cert.ReferenceIdeal.RefValue.gatherR (m ((c.tc : Thread nD τ).loc main_arg0)) (m ((c.tc : Thread nD τ).loc main_arg3)) :=
    (Cert.KernelIdeal.HostK.takeK_of_inrange _ _ hd).trans (Cert.ReferenceIdeal.RefValue.gatherR_of_inrange _ _ hd).symm
  have hn : Cert.KernelIdeal.KValue.nodeK m c
      = Cert.ReferenceIdeal.RefValue.node (m ((c.tc : Thread nD τ).loc main_arg0)) (m ((c.tc : Thread nD τ).loc main_arg1))
          (m ((c.tc : Thread nD τ).loc main_arg2)) (m ((c.tc : Thread nD τ).loc main_arg3)) := by
    unfold Cert.KernelIdeal.KValue.nodeK Cert.ReferenceIdeal.RefValue.node
    rw [gs, gd]
    rfl
  have hgs : ∀ j, IsReal (Cert.ReferenceIdeal.RefValue.gatherR (m ((c.tc : Thread nD τ).loc main_arg0)) (m ((c.tc : Thread nD τ).loc main_arg2)) j) := by
    intro j; rw [Cert.ReferenceIdeal.RefValue.gatherR_of_inrange _ _ hs]; exact hh _
  have hgd : ∀ j, IsReal (Cert.ReferenceIdeal.RefValue.gatherR (m ((c.tc : Thread nD τ).loc main_arg0)) (m ((c.tc : Thread nD τ).loc main_arg3)) j) := by
    intro j; rw [Cert.ReferenceIdeal.RefValue.gatherR_of_inrange _ _ hd]; exact hh _
  have hreal : ∀ i, IsReal (Cert.ReferenceIdeal.RefValue.node (m ((c.tc : Thread nD τ).loc main_arg0)) (m ((c.tc : Thread nD τ).loc main_arg1))
      (m ((c.tc : Thread nD τ).loc main_arg2)) (m ((c.tc : Thread nD τ).loc main_arg3)) i) :=
    hpre_real _ _ _ _ _ hh
      (seg_real _ _ _ (numF_real _ _ _ hgs hgd he)) (seg_nonneg _ _ _ (gate_nonneg _ _ _ hgs hgd he))
      (seg_real _ _ _ (numB_real _ _ _ hgs hgd he)) (seg_nonneg _ _ _ (gate_nonneg _ _ _ hgs hgd he))
  unfold Cert.KernelIdeal.KValue.kOut Cert.ReferenceIdeal.RefValue.refOut
  rw [hn, var_eq _ hreal]

end Cert.Bridge

end
-- ==== Proof.lean ====
/-
  The certificate of a gated message-passing layer with batch normalisation: `Cert.Claim`.

  Both programs compute, for node features h : [50000, 128], edge features e : [600000, 128] and edge endpoints src, dst:
  the edge gate σ(0.1·h[src] − 10·h[dst] + e), the gated messages summed per destination and per source, the node value
  x = 10·h + Σ_in gate·100·h[src] / (Σ_in gate + ε) + Σ_out gate·(−h[dst]) / (Σ_out gate + ε), its batch statistics per
  channel, and max ((x − mean)·rsqrt (var + ε')·γ + β, 0) + h.  They differ in three places.  The kernel's program takes
  rows with `jnp.take`, which fills a row whose index is out of range where the reference's `h[src]` clamps the index:
  the precondition keeps every index in [0, 50000), where both read the named row.  The kernel scales the gathered rows
  where the reference gathers scaled tables: a gather only re-indexes.  And the kernel's variance is the second moment
  minus the squared mean, accumulated block by block, where the reference's is the mean squared deviation: for real data
  these are one number, and the node value is real because the inputs are finite and each denominator is ε plus a sum of
  gates, which lie in (0, 1).

  The three frames are the generated ones (the reference's is its generated run with the result dropped); the idealization
  rewrote nothing, so `preserves` is `True`.
-/
import proofs.«417057_j29661044146779_3_alg».proof.Defs
import proofs.«417057_j29661044146779_3_alg».proof.Proof.Gen.Kernel
import proofs.«417057_j29661044146779_3_alg».proof.Proof.Gen.Kernel.Frame
import proofs.«417057_j29661044146779_3_alg».proof.Proof.Gen.KernelIdeal
import proofs.«417057_j29661044146779_3_alg».proof.Proof.Gen.KernelIdeal.Frame
import proofs.«417057_j29661044146779_3_alg».proof.Proof.Gen.ReferenceIdeal
import proofs.«417057_j29661044146779_3_alg».proof.Proof.Gen.ReferenceIdeal.Run
import proofs.«417057_j29661044146779_3_alg».proof.Proof.Gen.Pre_finite_inputs
import proofs.«417057_j29661044146779_3_alg».proof.Proof.KRun
import proofs.«417057_j29661044146779_3_alg».proof.Proof.KValue
import proofs.«417057_j29661044146779_3_alg».proof.Proof.RefValue
import proofs.«417057_j29661044146779_3_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both runs end with the result at one array: the kernel's at `kOut` of its
    launch contents, the reference's at `refOut` of its own, which the agreement and the bridge identify. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.kOut m c, ?_, ?_⟩
  · exact (θ_run Cert.KernelIdeal.defs _ _).mono
      (fun _ h c => ⟨(h c).1.trans (Cert.KernelIdeal.KValue.W7_result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]
    exact (Cert.Bridge.kOut_eq_refOut m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
